-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x64x512x512 : Shape := ⟨5, ![1, 1, 64, 512, 512]⟩
abbrev S_ : Shape := ⟨0, ![]⟩

class Facts : Prop where
  bcast_S_S1x1x64x512x512 : S_.BroadcastsInDim S1x1x64x512x512 (![] : Fin 0 → Fin S1x1x64x512x512.rank)
  reducesTo_S1x1x64x512x512_S_d0_1_2_3_4 : S1x1x64x512x512.ReducesTo [0, 1, 2, 3, 4] S_
  h_S_ : 0 < S_.numel

variable [Facts]

def fn {F : FTy → Type} [FloatOps F] (main_arg0 : FVec F S1x1x64x512x512 .f32) : IVec S_ 1 :=
  let main_v0 : FVec F S1x1x64x512x512 .f32 := Host.absf main_arg0
  let main_cst : FVec F S_ .f32 := constant S_ .f32 0x7F800000#32
  let main_v1 : FVec F S1x1x64x512x512 .f32 := broadcastInDim S1x1x64x512x512 ![] bcast_S_S1x1x64x512x512 main_cst
  let main_v2 : IVec S1x1x64x512x512 1 := cmpf .olt main_v0 main_v1
  let main_c : IVec S_ 1 := constantI S_ 1 1#1
  let main_v3 : IVec S_ 1 := (fun x v => Host.reduce IntOp.andi x v reducesTo_S1x1x64x512x512_S_d0_1_2_3_4 h_S_) main_v2 main_c
  main_v3
-- ==== Kernel.lean ====
abbrev S1x1x64x512x512 : Shape := ⟨5, ![1, 1, 64, 512, 512]⟩
abbrev S64x512x512 : Shape := ⟨3, ![64, 512, 512]⟩
abbrev S8x512x512 : Shape := ⟨3, ![8, 512, 512]⟩
abbrev S8x512x1 : Shape := ⟨3, ![8, 512, 1]⟩
abbrev S8x512x511 : Shape := ⟨3, ![8, 512, 511]⟩
abbrev S8x512x2 : Shape := ⟨3, ![8, 512, 2]⟩
abbrev S8x512x510 : Shape := ⟨3, ![8, 512, 510]⟩
abbrev S8x512x3 : Shape := ⟨3, ![8, 512, 3]⟩
abbrev S8x512x509 : Shape := ⟨3, ![8, 512, 509]⟩
abbrev S8x512x4 : Shape := ⟨3, ![8, 512, 4]⟩
abbrev S8x512x508 : Shape := ⟨3, ![8, 512, 508]⟩
abbrev S8x1x512 : Shape := ⟨3, ![8, 1, 512]⟩
abbrev S8x511x512 : Shape := ⟨3, ![8, 511, 512]⟩
abbrev S8x2x512 : Shape := ⟨3, ![8, 2, 512]⟩
abbrev S8x510x512 : Shape := ⟨3, ![8, 510, 512]⟩
abbrev S8x3x512 : Shape := ⟨3, ![8, 3, 512]⟩
abbrev S8x509x512 : Shape := ⟨3, ![8, 509, 512]⟩
abbrev S8x4x512 : Shape := ⟨3, ![8, 4, 512]⟩
abbrev S8x508x512 : Shape := ⟨3, ![8, 508, 512]⟩
abbrev S64x32x512 : Shape := ⟨3, ![64, 32, 512]⟩
abbrev S1x32x512 : Shape := ⟨3, ![1, 32, 512]⟩
abbrev S63x32x512 : Shape := ⟨3, ![63, 32, 512]⟩
abbrev S2x32x512 : Shape := ⟨3, ![2, 32, 512]⟩
abbrev S62x32x512 : Shape := ⟨3, ![62, 32, 512]⟩
abbrev S3x32x512 : Shape := ⟨3, ![3, 32, 512]⟩
abbrev S61x32x512 : Shape := ⟨3, ![61, 32, 512]⟩
abbrev S4x32x512 : Shape := ⟨3, ![4, 32, 512]⟩
abbrev S60x32x512 : Shape := ⟨3, ![60, 32, 512]⟩

abbrev nBuf : Space → Nat
  | .hbm => 5
  | .vmem => 14
  | .smem => 0
  | _ => 0

abbrev bufTy : (tb : Table) → Fin (tcTables nBuf tb) → BufTy
  | .hbm, ⟨0, _⟩ => ⟨S1x1x64x512x512, .f32⟩
  | .hbm, ⟨1, _⟩ => ⟨S64x512x512, .f32⟩
  | .hbm, ⟨2, _⟩ => ⟨S64x512x512, .f32⟩
  | .hbm, ⟨3, _⟩ => ⟨S64x512x512, .f32⟩
  | .hbm, ⟨4, _⟩ => ⟨S64x512x512, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x512x512, .f32⟩
  | .local _ .vmem, ⟨5, _⟩ => ⟨S8x512x512, .f32⟩
  | .local _ .vmem, ⟨6, _⟩ => ⟨S8x512x512, .f32⟩
  | .local _ .vmem, ⟨7, _⟩ => ⟨S8x512x512, .f32⟩
  | .local _ .vmem, ⟨8, _⟩ => ⟨S64x32x512, .f32⟩
  | .local _ .vmem, ⟨9, _⟩ => ⟨S64x32x512, .f32⟩
  | .local _ .vmem, ⟨10, _⟩ => ⟨S64x32x512, .f32⟩
  | .local _ .vmem, ⟨11, _⟩ => ⟨S64x32x512, .f32⟩
  | .local _ .vmem, ⟨12, _⟩ => ⟨S64x32x512, .f32⟩
  | .local _ .vmem, ⟨13, _⟩ => ⟨S64x32x512, .f32⟩
  | _, _ => ⟨S1x1x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S64x32x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x32x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x1x64x512x512_S64x512x512 : S1x1x64x512x512.ShapeCasts S64x512x512
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  slices_S8x512x512_o0_0_1_S8x512x511 : S8x512x512.Slices ![0, 0, 1] S8x512x511
  concatenates_S8x512x511_S8x512x1_S8x512x512_d2 : Shape.Concatenates [S8x512x511, S8x512x1] S8x512x512 2
  slices_S8x512x512_o0_0_0_S8x512x511 : S8x512x512.Slices ![0, 0, 0] S8x512x511
  concatenates_S8x512x1_S8x512x511_S8x512x512_d2 : Shape.Concatenates [S8x512x1, S8x512x511] S8x512x512 2
  slices_S8x512x512_o0_0_2_S8x512x510 : S8x512x512.Slices ![0, 0, 2] S8x512x510
  concatenates_S8x512x510_S8x512x2_S8x512x512_d2 : Shape.Concatenates [S8x512x510, S8x512x2] S8x512x512 2
  slices_S8x512x512_o0_0_0_S8x512x510 : S8x512x512.Slices ![0, 0, 0] S8x512x510
  concatenates_S8x512x2_S8x512x510_S8x512x512_d2 : Shape.Concatenates [S8x512x2, S8x512x510] S8x512x512 2
  slices_S8x512x512_o0_0_3_S8x512x509 : S8x512x512.Slices ![0, 0, 3] S8x512x509
  concatenates_S8x512x509_S8x512x3_S8x512x512_d2 : Shape.Concatenates [S8x512x509, S8x512x3] S8x512x512 2
  slices_S8x512x512_o0_0_0_S8x512x509 : S8x512x512.Slices ![0, 0, 0] S8x512x509
  concatenates_S8x512x3_S8x512x509_S8x512x512_d2 : Shape.Concatenates [S8x512x3, S8x512x509] S8x512x512 2
  slices_S8x512x512_o0_0_4_S8x512x508 : S8x512x512.Slices ![0, 0, 4] S8x512x508
  concatenates_S8x512x508_S8x512x4_S8x512x512_d2 : Shape.Concatenates [S8x512x508, S8x512x4] S8x512x512 2
  slices_S8x512x512_o0_0_0_S8x512x508 : S8x512x512.Slices ![0, 0, 0] S8x512x508
  concatenates_S8x512x4_S8x512x508_S8x512x512_d2 : Shape.Concatenates [S8x512x4, S8x512x508] S8x512x512 2
  slices_S8x512x512_o0_1_0_S8x511x512 : S8x512x512.Slices ![0, 1, 0] S8x511x512
  concatenates_S8x511x512_S8x1x512_S8x512x512_d1 : Shape.Concatenates [S8x511x512, S8x1x512] S8x512x512 1
  slices_S8x512x512_o0_0_0_S8x511x512 : S8x512x512.Slices ![0, 0, 0] S8x511x512
  concatenates_S8x1x512_S8x511x512_S8x512x512_d1 : Shape.Concatenates [S8x1x512, S8x511x512] S8x512x512 1
  slices_S8x512x512_o0_2_0_S8x510x512 : S8x512x512.Slices ![0, 2, 0] S8x510x512
  concatenates_S8x510x512_S8x2x512_S8x512x512_d1 : Shape.Concatenates [S8x510x512, S8x2x512] S8x512x512 1
  slices_S8x512x512_o0_0_0_S8x510x512 : S8x512x512.Slices ![0, 0, 0] S8x510x512
  concatenates_S8x2x512_S8x510x512_S8x512x512_d1 : Shape.Concatenates [S8x2x512, S8x510x512] S8x512x512 1
  slices_S8x512x512_o0_3_0_S8x509x512 : S8x512x512.Slices ![0, 3, 0] S8x509x512
  concatenates_S8x509x512_S8x3x512_S8x512x512_d1 : Shape.Concatenates [S8x509x512, S8x3x512] S8x512x512 1
  slices_S8x512x512_o0_0_0_S8x509x512 : S8x512x512.Slices ![0, 0, 0] S8x509x512
  concatenates_S8x3x512_S8x509x512_S8x512x512_d1 : Shape.Concatenates [S8x3x512, S8x509x512] S8x512x512 1
  slices_S8x512x512_o0_4_0_S8x508x512 : S8x512x512.Slices ![0, 4, 0] S8x508x512
  concatenates_S8x508x512_S8x4x512_S8x512x512_d1 : Shape.Concatenates [S8x508x512, S8x4x512] S8x512x512 1
  slices_S8x512x512_o0_0_0_S8x508x512 : S8x512x512.Slices ![0, 0, 0] S8x508x512
  concatenates_S8x4x512_S8x508x512_S8x512x512_d1 : Shape.Concatenates [S8x4x512, S8x508x512] S8x512x512 1
  inb_S64x32x512_S64x32x512_0_0_0 : ∀ a, (![0, 0, 0] : Fin 3 → Nat) a + S64x32x512.size a ≤ S64x32x512.size a
  h_S64x32x512 : 0 < S64x32x512.numel
  shapeCasts_S64x32x512_S64x32x512 : S64x32x512.ShapeCasts S64x32x512
  slices_S64x32x512_o1_0_0_S63x32x512 : S64x32x512.Slices ![1, 0, 0] S63x32x512
  concatenates_S63x32x512_S1x32x512_S64x32x512_d0 : Shape.Concatenates [S63x32x512, S1x32x512] S64x32x512 0
  slices_S64x32x512_o0_0_0_S63x32x512 : S64x32x512.Slices ![0, 0, 0] S63x32x512
  concatenates_S1x32x512_S63x32x512_S64x32x512_d0 : Shape.Concatenates [S1x32x512, S63x32x512] S64x32x512 0
  slices_S64x32x512_o2_0_0_S62x32x512 : S64x32x512.Slices ![2, 0, 0] S62x32x512
  concatenates_S62x32x512_S2x32x512_S64x32x512_d0 : Shape.Concatenates [S62x32x512, S2x32x512] S64x32x512 0
  slices_S64x32x512_o0_0_0_S62x32x512 : S64x32x512.Slices ![0, 0, 0] S62x32x512
  concatenates_S2x32x512_S62x32x512_S64x32x512_d0 : Shape.Concatenates [S2x32x512, S62x32x512] S64x32x512 0
  slices_S64x32x512_o3_0_0_S61x32x512 : S64x32x512.Slices ![3, 0, 0] S61x32x512
  concatenates_S61x32x512_S3x32x512_S64x32x512_d0 : Shape.Concatenates [S61x32x512, S3x32x512] S64x32x512 0
  slices_S64x32x512_o0_0_0_S61x32x512 : S64x32x512.Slices ![0, 0, 0] S61x32x512
  concatenates_S3x32x512_S61x32x512_S64x32x512_d0 : Shape.Concatenates [S3x32x512, S61x32x512] S64x32x512 0
  slices_S64x32x512_o4_0_0_S60x32x512 : S64x32x512.Slices ![4, 0, 0] S60x32x512
  concatenates_S60x32x512_S4x32x512_S64x32x512_d0 : Shape.Concatenates [S60x32x512, S4x32x512] S64x32x512 0
  slices_S64x32x512_o0_0_0_S60x32x512 : S64x32x512.Slices ![0, 0, 0] S60x32x512
  concatenates_S4x32x512_S60x32x512_S64x32x512_d0 : Shape.Concatenates [S4x32x512, S60x32x512] S64x32x512 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .f32 = 32 ∨ (Rect.block (s := S64x512x512) S8x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x512.size a ≤ S64x512x512.size a
  hwx1_0 : ∀ i : grid1.Coords, EltTy.bits .f32 = 32 ∨ (Rect.block (s := S64x512x512) S8x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x512.size a ≤ S64x512x512.size a
  hwx1_1 : ∀ i : grid1.Coords, EltTy.bits .f32 = 32 ∨ (Rect.block (s := S64x512x512) S8x512x512.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x32x512.size a ≤ S64x512x512.size a
  hwx2_0 : ∀ i : grid2.Coords, EltTy.bits .f32 = 32 ∨ (Rect.block (s := S64x512x512) S64x32x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x32x512.size a ≤ S64x512x512.size a
  hwx2_1 : ∀ i : grid2.Coords, EltTy.bits .f32 = 32 ∨ (Rect.block (s := S64x512x512) S64x32x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x32x512.size a ≤ S64x512x512.size a
  hwx2_2 : ∀ i : grid2.Coords, EltTy.bits .f32 = 32 ∨ (Rect.block (s := S64x512x512) S64x32x512.size (cc2_transform_2 i) (hinb2_2 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S64x32x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S64x32x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S64x32x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x1x64x512x512 : Shape := ⟨5, ![1, 1, 64, 512, 512]⟩
abbrev S_ : Shape := ⟨0, ![]⟩
abbrev S64x512x512 : Shape := ⟨3, ![64, 512, 512]⟩

abbrev nBuf : Space → Nat
  | .hbm => 19
  | .vmem => 0
  | .smem => 0
  | _ => 0

abbrev bufTy : (tb : Table) → Fin (tcTables nBuf tb) → BufTy
  | .hbm, ⟨0, _⟩ => ⟨S1x1x64x512x512, .f32⟩
  | .hbm, ⟨1, _⟩ => ⟨S_, .f32⟩
  | .hbm, ⟨2, _⟩ => ⟨S1x1x64x512x512, .f32⟩
  | .hbm, ⟨3, _⟩ => ⟨S1x1x64x512x512, .i1⟩
  | .hbm, ⟨4, _⟩ => ⟨S_, .f32⟩
  | .hbm, ⟨5, _⟩ => ⟨S1x1x64x512x512, .f32⟩
  | .hbm, ⟨6, _⟩ => ⟨S1x1x64x512x512, .f32⟩
  | .hbm, ⟨7, _⟩ => ⟨S_, .f32⟩
  | .hbm, ⟨8, _⟩ => ⟨S_, .f32⟩
  | .hbm, ⟨9, _⟩ => ⟨S1x1x64x512x512, .f32⟩
  | .hbm, ⟨10, _⟩ => ⟨S_, .f32⟩
  | .hbm, ⟨11, _⟩ => ⟨S1x1x64x512x512, .f32⟩
  | .hbm, ⟨12, _⟩ => ⟨S1x1x64x512x512, .i1⟩
  | .hbm, ⟨13, _⟩ => ⟨S1x1x64x512x512, .i1⟩
  | .hbm, ⟨14, _⟩ => ⟨S1x1x64x512x512, .i1⟩
  | .hbm, ⟨15, _⟩ => ⟨S_, .f32⟩
  | .hbm, ⟨16, _⟩ => ⟨S1x1x64x512x512, .f32⟩
  | .hbm, ⟨17, _⟩ => ⟨S1x1x64x512x512, .f32⟩
  | .hbm, ⟨18, _⟩ => ⟨S64x512x512, .f32⟩
  | _, _ => ⟨S1x1x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_call0_v0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S1x1x64x512x512 : S_.BroadcastsInDim S1x1x64x512x512 (![] : Fin 0 → Fin S1x1x64x512x512.rank)
  bcast_S_S_ : S_.BroadcastsInDim S_ (![] : Fin 0 → Fin S_.rank)
  reduceWindows_S1x1x64x512x512_S1x1x64x512x512_w1s1p0_0_w1s1p0_0_w9s1p4_4_w9s1p4_4_w9s1p4_4 : S1x1x64x512x512.ReduceWindows (![1, 1, 9, 9, 9] : Fin 5 → Nat) ![1, 1, 1, 1, 1] ![0, 0, 4, 4, 4] ![0, 0, 4, 4, 4] S1x1x64x512x512
  h_S_ : 0 < S_.numel
  shapeCasts_S1x1x64x512x512_S64x512x512 : S1x1x64x512x512.ShapeCasts S64x512x512

variable [Facts₀]

class Facts : Prop extends Facts₀ where

variable [Facts]
-- ==== Proof.SlidingMax.lean ====
/-
  The sliding maximum of radius 4 along a line, on the extended reals, and what it does to a volume when applied
  along each of the three axes in turn.

  A line is a function `f : Fin n → EReal`. Entry `i` of its sliding maximum is the largest of the entries whose
  position is within 4 of `i`; positions that fall off either end of the line contribute `⊥`, the neutral element of
  `max`. It is spelt here as the kernels spell it: the entry itself, then for each distance `d = 1, 2, 3, 4` the entry
  `d` ahead and the entry `d` behind, joined by `max` from the left.

  Everything that is proved about it goes through one order fact (`slide_le_iff`): the sliding maximum is below `z`
  exactly when every entry within distance 4 is. Applying that fact once per axis says that sliding along the last,
  then the middle, then the first axis of a volume is below `z` exactly when every entry of the surrounding
  9 × 9 × 9 box (clipped to the volume) is (`box_le_iff`): the nested one-dimensional maxima compute the
  maximum over the box, whatever the order of the axes.
-/
import Idealize.ShloMosaic.PureOps.Ideal

noncomputable section

namespace Cert.SlidingMax

/-- The entry `d` places ahead of `i`, or `⊥` when that is past the end of the line. -/
def ahead {n : ℕ} (f : Fin n → EReal) (i : Fin n) (d : ℕ) : EReal :=
  if h : i.val + d < n then f ⟨i.val + d, h⟩ else ⊥

/-- The entry `d` places behind `i`, or `⊥` when that is before the start of the line. -/
def behind {n : ℕ} (f : Fin n → EReal) (i : Fin n) (d : ℕ) : EReal :=
  if h : d ≤ i.val then f ⟨i.val - d, lt_of_le_of_lt (Nat.sub_le _ _) i.isLt⟩ else ⊥

/-- The sliding maximum of radius 4 at `i`, joined from the left in the order
    entry, 1 ahead, 1 behind, 2 ahead, 2 behind, 3 ahead, 3 behind, 4 ahead, 4 behind. -/
def slide {n : ℕ} (f : Fin n → EReal) (i : Fin n) : EReal :=
  max (max (max (max (max (max (max (max (f i) (ahead f i 1)) (behind f i 1)) (ahead f i 2)) (behind f i 2))
    (ahead f i 3)) (behind f i 3)) (ahead f i 4)) (behind f i 4)

/-- Positions `i` and `j` are within distance 4 of each other. -/
def Near (i j : ℕ) : Prop := j ≤ i + 4 ∧ i ≤ j + 4

theorem ahead_le_iff {n : ℕ} (f : Fin n → EReal) (i : Fin n) (d : ℕ) (z : EReal) :
    ahead f i d ≤ z ↔ ∀ j : Fin n, j.val = i.val + d → f j ≤ z := by
  unfold ahead
  constructor
  · intro h j hj
    have hlt : i.val + d < n := hj ▸ j.isLt
    rw [dif_pos hlt] at h
    have : j = ⟨i.val + d, hlt⟩ := Fin.ext hj
    rw [this]; exact h
  · intro h
    by_cases hlt : i.val + d < n
    · rw [dif_pos hlt]; exact h ⟨i.val + d, hlt⟩ rfl
    · rw [dif_neg hlt]; exact bot_le

theorem behind_le_iff {n : ℕ} (f : Fin n → EReal) (i : Fin n) (d : ℕ) (z : EReal) :
    behind f i d ≤ z ↔ ∀ j : Fin n, j.val + d = i.val → f j ≤ z := by
  unfold behind
  constructor
  · intro h j hj
    have hle : d ≤ i.val := by omega
    rw [dif_pos hle] at h
    have : j = ⟨i.val - d, lt_of_le_of_lt (Nat.sub_le _ _) i.isLt⟩ := Fin.ext (by show j.val = i.val - d; omega)
    rw [this]; exact h
  · intro h
    by_cases hle : d ≤ i.val
    · rw [dif_pos hle]; exact h ⟨i.val - d, _⟩ (by show i.val - d + d = i.val; omega)
    · rw [dif_neg hle]; exact bot_le

/-- The sliding maximum is below `z` exactly when every entry within distance 4 is. -/
theorem slide_le_iff {n : ℕ} (f : Fin n → EReal) (i : Fin n) (z : EReal) :
    slide f i ≤ z ↔ ∀ j : Fin n, Near i.val j.val → f j ≤ z := by
  unfold slide Near
  simp only [max_le_iff, ahead_le_iff, behind_le_iff]
  constructor
  · rintro ⟨⟨⟨⟨⟨⟨⟨⟨h0, a1⟩, b1⟩, a2⟩, b2⟩, a3⟩, b3⟩, a4⟩, b4⟩ j ⟨hj1, hj2⟩
    rcases Nat.lt_or_ge i.val j.val with hlt | hge
    · obtain ⟨k, hk⟩ : ∃ k, j.val = i.val + k := ⟨j.val - i.val, by omega⟩
      have hk4 : k ≤ 4 := by omega
      have hk1 : 1 ≤ k := by omega
      interval_cases k
      · exact a1 j hk
      · exact a2 j hk
      · exact a3 j hk
      · exact a4 j hk
    · obtain ⟨k, hk⟩ : ∃ k, j.val + k = i.val := ⟨i.val - j.val, by omega⟩
      have hk4 : k ≤ 4 := by omega
      interval_cases k
      · have : j = i := Fin.ext (by omega)
        rw [this]; exact h0
      · exact b1 j hk
      · exact b2 j hk
      · exact b3 j hk
      · exact b4 j hk
  · intro h
    refine ⟨⟨⟨⟨⟨⟨⟨⟨h i ⟨by omega, by omega⟩, ?_⟩, ?_⟩, ?_⟩, ?_⟩, ?_⟩, ?_⟩, ?_⟩, ?_⟩ <;>
      intro j hj <;> exact h j ⟨by omega, by omega⟩

/-! ## A volume, slid along each axis -/

/-- A volume of extents `a × b × c`, by coordinates. -/
abbrev Vol (a b c : ℕ) := Fin a → Fin b → Fin c → EReal

/-- The sliding maximum along the last axis. -/
def alongLast {a b c : ℕ} (X : Vol a b c) : Vol a b c := fun p q r => slide (fun r' => X p q r') r
/-- The sliding maximum along the middle axis. -/
def alongMid {a b c : ℕ} (X : Vol a b c) : Vol a b c := fun p q r => slide (fun q' => X p q' r) q
/-- The sliding maximum along the first axis. -/
def alongFirst {a b c : ℕ} (X : Vol a b c) : Vol a b c := fun p q r => slide (fun p' => X p' q r) p

/-- Sliding along the last, then the middle, then the first axis is below `z` exactly when every entry of the
    clipped 9 × 9 × 9 box around the position is: the three passes compute the maximum over the box. -/
theorem box_le_iff {a b c : ℕ} (X : Vol a b c) (p : Fin a) (q : Fin b) (r : Fin c) (z : EReal) :
    alongFirst (alongMid (alongLast X)) p q r ≤ z
      ↔ ∀ (p' : Fin a) (q' : Fin b) (r' : Fin c), Near p.val p'.val → Near q.val q'.val → Near r.val r'.val → X p' q' r' ≤ z := by
  unfold alongFirst
  rw [slide_le_iff]
  constructor
  · intro h p' q' r' hp hq hr
    have h1 := h p' hp
    unfold alongMid at h1
    rw [slide_le_iff] at h1
    have h2 := h1 q' hq
    unfold alongLast at h2
    rw [slide_le_iff] at h2
    exact h2 r' hr
  · intro h p' hp
    unfold alongMid
    rw [slide_le_iff]
    intro q' hq
    unfold alongLast
    rw [slide_le_iff]
    intro r' hr
    exact h p' q' r' hp hq hr

/-! ## The threshold and the local-maximum test, entry by entry -/

open Idealize.ShloMosaic

/-- An entry above one half is kept, any other is replaced by zero. -/
def keep (x : EReal) : EReal :=
  Scalar.select (FloatOps.cmpf (F := Ideal) (φ := .f32) .ogt x (FloatOps.ofBits .f32 0x3F000000#32)) x
    (FloatOps.ofBits (F := Ideal) .f32 0x00000000#32)

/-- The box maximum `P` is kept where it is positive and equal to the thresholded entry `T` at the same position
    (the entry is then a maximum of its box), and replaced by zero elsewhere. -/
def pick (P T : EReal) : EReal :=
  Scalar.select (IntOp.andi (FloatOps.cmpf (F := Ideal) (φ := .f32) .ogt P (FloatOps.ofBits .f32 0x00000000#32))
      (FloatOps.cmpf (F := Ideal) (φ := .f32) .oeq P T)) P
    (FloatOps.ofBits (F := Ideal) .f32 0x00000000#32)

/-- The whole computation on a volume `X`: threshold, slide along the last, the middle and the first axis, then
    keep the box maximum where the thresholded entry attains it. -/
def peaks {a b c : ℕ} (X : Vol a b c) : Vol a b c := fun p q r =>
  pick (alongFirst (alongMid (alongLast fun p' q' r' => keep (X p' q' r'))) p q r) (keep (X p q r))

end Cert.SlidingMax

end
-- ==== Proof.LibShiftFill.lean ====
/-
  A rank-3 block shifted along one axis with a constant fill, read at an index.

  The kernels of this unit shift a block by `d` places along an axis by cutting `d` planes off one end and laying
  `d` planes of a constant at the other: a slice of the block laid end to end with a constant block. Read at an index
  given by its three coordinates, the result is the source at the coordinate moved by `d`, or the constant where the
  moved coordinate leaves the block. One lemma per axis and direction, for any extents.
-/
import Idealize.ShloMosaic.PureOps.Ideal
import Idealize.ShloMosaic.Lib.ValueIdx
import Idealize.ShloMosaic.Lib.Pipeline.Value

noncomputable section

namespace Cert.ShiftFill

open Idealize.ShloMosaic Idealize.ShloMosaic.ValueIdx

/-- The block shifted `d` places towards the start along the last axis, the vacated end filled with `v`:
    an entry reads the source `d` places ahead, or `v` when that is past the end. -/
theorem ahead_last {α : Type} {A B C C₁ d : ℕ} (x : (⟨3, ![A, B, C]⟩ : Shape).Idx → α) (v : α)
    (hs : (⟨3, ![A, B, C]⟩ : Shape).Slices ![0, 0, d] ⟨3, ![A, B, C₁]⟩)
    (hc : Shape.Concatenates [⟨3, ![A, B, C₁]⟩, ⟨3, ![A, B, d]⟩] ⟨3, ![A, B, C]⟩ 2)
    (p : Fin A) (q : Fin B) (r : Fin C) :
    concatenate ⟨3, ![A, B, C]⟩ 2 [⟨⟨3, ![A, B, C₁]⟩, extractStridedSlice ⟨3, ![A, B, C₁]⟩ ![0, 0, d] x hs⟩, ⟨⟨3, ![A, B, d]⟩, broadcast ⟨3, ![A, B, d]⟩ v⟩] hc (ix3 p q r)
      = if h : r.val + d < C then x (ix3 p q ⟨r.val + d, h⟩) else v := by
  -- the two pieces' extents along the axis add up to the block's
  have hsum : C₁ + d = C := by
    have e := hc.2.2
    simpa using e
  by_cases h : r.val + d < C
  · -- the entry lies in the slice, which reads the source `d` places further on
    rw [dif_pos h]
    have hlt : r.val < C₁ := by omega
    rw [concatenate_pair_apply_left (s₁ := ⟨3, ![A, B, C₁]⟩) (s₂ := ⟨3, ![A, B, d]⟩) (2 : Fin 3) _ _ hc (ix3 p q r) rfl
      (ix3 p q ⟨r.val, hlt⟩)
      (fun b => match b with | ⟨0, _⟩ => rfl | ⟨1, _⟩ => rfl | ⟨2, _⟩ => rfl)]
    exact extractStridedSlice_apply _ x hs (ix3 p q ⟨r.val, hlt⟩) (ix3 p q ⟨r.val + d, h⟩)
      (fun a => match a with
        | ⟨0, _⟩ => (Nat.zero_add _).symm
        | ⟨1, _⟩ => (Nat.zero_add _).symm
        | ⟨2, _⟩ => Nat.add_comm _ _)
  · -- the entry lies in the constant piece
    rw [dif_neg h]
    have hlt : r.val - C₁ < d := by have := r.isLt; omega
    rw [concatenate_pair_apply_right (s₁ := ⟨3, ![A, B, C₁]⟩) (s₂ := ⟨3, ![A, B, d]⟩) (2 : Fin 3) _ _ hc (ix3 p q r) rfl rfl
      (ix3 p q ⟨r.val - C₁, hlt⟩)
      (fun b => match b with
        | ⟨0, _⟩ => fun _ => rfl
        | ⟨1, _⟩ => fun _ => rfl
        | ⟨2, _⟩ => fun hb => absurd rfl hb)
      (show r.val - C₁ + C₁ = r.val by omega)]
    rfl

/-- The block shifted `d` places towards the end along the last axis, the vacated start filled with `v`:
    an entry reads the source `d` places behind, or `v` when that is before the start. -/
theorem behind_last {α : Type} {A B C C₁ d : ℕ} (x : (⟨3, ![A, B, C]⟩ : Shape).Idx → α) (v : α)
    (hs : (⟨3, ![A, B, C]⟩ : Shape).Slices ![0, 0, 0] ⟨3, ![A, B, C₁]⟩)
    (hc : Shape.Concatenates [⟨3, ![A, B, d]⟩, ⟨3, ![A, B, C₁]⟩] ⟨3, ![A, B, C]⟩ 2)
    (p : Fin A) (q : Fin B) (r : Fin C) :
    concatenate ⟨3, ![A, B, C]⟩ 2 [⟨⟨3, ![A, B, d]⟩, broadcast ⟨3, ![A, B, d]⟩ v⟩, ⟨⟨3, ![A, B, C₁]⟩, extractStridedSlice ⟨3, ![A, B, C₁]⟩ ![0, 0, 0] x hs⟩] hc (ix3 p q r)
      = if h : d ≤ r.val then x (ix3 p q ⟨r.val - d, lt_of_le_of_lt (Nat.sub_le _ _) r.isLt⟩) else v := by
  -- the two pieces' extents along the axis add up to the block's
  have hsum : d + C₁ = C := by
    have e := hc.2.2
    simpa using e
  by_cases h : d ≤ r.val
  · -- the entry lies in the slice, `d` places into the block, and the slice starts at the source's start
    rw [dif_pos h]
    have hlt : r.val - d < C₁ := by have := r.isLt; omega
    rw [concatenate_pair_apply_right (s₁ := ⟨3, ![A, B, d]⟩) (s₂ := ⟨3, ![A, B, C₁]⟩) (2 : Fin 3) _ _ hc (ix3 p q r) rfl rfl
      (ix3 p q ⟨r.val - d, hlt⟩)
      (fun b => match b with
        | ⟨0, _⟩ => fun _ => rfl
        | ⟨1, _⟩ => fun _ => rfl
        | ⟨2, _⟩ => fun hb => absurd rfl hb)
      (show r.val - d + d = r.val by omega)]
    exact extractStridedSlice_apply _ x hs (ix3 p q ⟨r.val - d, hlt⟩)
      (ix3 p q ⟨r.val - d, lt_of_le_of_lt (Nat.sub_le _ _) r.isLt⟩)
      (fun a => match a with
        | ⟨0, _⟩ => (Nat.zero_add _).symm
        | ⟨1, _⟩ => (Nat.zero_add _).symm
        | ⟨2, _⟩ => (Nat.zero_add _).symm)
  · -- the entry lies in the constant piece
    rw [dif_neg h]
    have hlt : r.val < d := by omega
    rw [concatenate_pair_apply_left (s₁ := ⟨3, ![A, B, d]⟩) (s₂ := ⟨3, ![A, B, C₁]⟩) (2 : Fin 3) _ _ hc (ix3 p q r) rfl
      (ix3 p q ⟨r.val, hlt⟩)
      (fun b => match b with | ⟨0, _⟩ => rfl | ⟨1, _⟩ => rfl | ⟨2, _⟩ => rfl)]
    rfl

/-- The block shifted `d` places towards the start along the mid axis, the vacated end filled with `v`:
    an entry reads the source `d` places ahead, or `v` when that is past the end. -/
theorem ahead_mid {α : Type} {A B C B₁ d : ℕ} (x : (⟨3, ![A, B, C]⟩ : Shape).Idx → α) (v : α)
    (hs : (⟨3, ![A, B, C]⟩ : Shape).Slices ![0, d, 0] ⟨3, ![A, B₁, C]⟩)
    (hc : Shape.Concatenates [⟨3, ![A, B₁, C]⟩, ⟨3, ![A, d, C]⟩] ⟨3, ![A, B, C]⟩ 1)
    (p : Fin A) (q : Fin B) (r : Fin C) :
    concatenate ⟨3, ![A, B, C]⟩ 1 [⟨⟨3, ![A, B₁, C]⟩, extractStridedSlice ⟨3, ![A, B₁, C]⟩ ![0, d, 0] x hs⟩, ⟨⟨3, ![A, d, C]⟩, broadcast ⟨3, ![A, d, C]⟩ v⟩] hc (ix3 p q r)
      = if h : q.val + d < B then x (ix3 p ⟨q.val + d, h⟩ r) else v := by
  -- the two pieces' extents along the axis add up to the block's
  have hsum : B₁ + d = B := by
    have e := hc.2.2
    simpa using e
  by_cases h : q.val + d < B
  · -- the entry lies in the slice, which reads the source `d` places further on
    rw [dif_pos h]
    have hlt : q.val < B₁ := by omega
    rw [concatenate_pair_apply_left (s₁ := ⟨3, ![A, B₁, C]⟩) (s₂ := ⟨3, ![A, d, C]⟩) (1 : Fin 3) _ _ hc (ix3 p q r) rfl
      (ix3 p ⟨q.val, hlt⟩ r)
      (fun b => match b with | ⟨0, _⟩ => rfl | ⟨1, _⟩ => rfl | ⟨2, _⟩ => rfl)]
    exact extractStridedSlice_apply _ x hs (ix3 p ⟨q.val, hlt⟩ r) (ix3 p ⟨q.val + d, h⟩ r)
      (fun a => match a with
        | ⟨0, _⟩ => (Nat.zero_add _).symm
        | ⟨1, _⟩ => Nat.add_comm _ _
        | ⟨2, _⟩ => (Nat.zero_add _).symm)
  · -- the entry lies in the constant piece
    rw [dif_neg h]
    have hlt : q.val - B₁ < d := by have := q.isLt; omega
    rw [concatenate_pair_apply_right (s₁ := ⟨3, ![A, B₁, C]⟩) (s₂ := ⟨3, ![A, d, C]⟩) (1 : Fin 3) _ _ hc (ix3 p q r) rfl rfl
      (ix3 p ⟨q.val - B₁, hlt⟩ r)
      (fun b => match b with
        | ⟨0, _⟩ => fun _ => rfl
        | ⟨1, _⟩ => fun hb => absurd rfl hb
        | ⟨2, _⟩ => fun _ => rfl)
      (show q.val - B₁ + B₁ = q.val by omega)]
    rfl

/-- The block shifted `d` places towards the end along the mid axis, the vacated start filled with `v`:
    an entry reads the source `d` places behind, or `v` when that is before the start. -/
theorem behind_mid {α : Type} {A B C B₁ d : ℕ} (x : (⟨3, ![A, B, C]⟩ : Shape).Idx → α) (v : α)
    (hs : (⟨3, ![A, B, C]⟩ : Shape).Slices ![0, 0, 0] ⟨3, ![A, B₁, C]⟩)
    (hc : Shape.Concatenates [⟨3, ![A, d, C]⟩, ⟨3, ![A, B₁, C]⟩] ⟨3, ![A, B, C]⟩ 1)
    (p : Fin A) (q : Fin B) (r : Fin C) :
    concatenate ⟨3, ![A, B, C]⟩ 1 [⟨⟨3, ![A, d, C]⟩, broadcast ⟨3, ![A, d, C]⟩ v⟩, ⟨⟨3, ![A, B₁, C]⟩, extractStridedSlice ⟨3, ![A, B₁, C]⟩ ![0, 0, 0] x hs⟩] hc (ix3 p q r)
      = if h : d ≤ q.val then x (ix3 p ⟨q.val - d, lt_of_le_of_lt (Nat.sub_le _ _) q.isLt⟩ r) else v := by
  -- the two pieces' extents along the axis add up to the block's
  have hsum : d + B₁ = B := by
    have e := hc.2.2
    simpa using e
  by_cases h : d ≤ q.val
  · -- the entry lies in the slice, `d` places into the block, and the slice starts at the source's start
    rw [dif_pos h]
    have hlt : q.val - d < B₁ := by have := q.isLt; omega
    rw [concatenate_pair_apply_right (s₁ := ⟨3, ![A, d, C]⟩) (s₂ := ⟨3, ![A, B₁, C]⟩) (1 : Fin 3) _ _ hc (ix3 p q r) rfl rfl
      (ix3 p ⟨q.val - d, hlt⟩ r)
      (fun b => match b with
        | ⟨0, _⟩ => fun _ => rfl
        | ⟨1, _⟩ => fun hb => absurd rfl hb
        | ⟨2, _⟩ => fun _ => rfl)
      (show q.val - d + d = q.val by omega)]
    exact extractStridedSlice_apply _ x hs (ix3 p ⟨q.val - d, hlt⟩ r)
      (ix3 p ⟨q.val - d, lt_of_le_of_lt (Nat.sub_le _ _) q.isLt⟩ r)
      (fun a => match a with
        | ⟨0, _⟩ => (Nat.zero_add _).symm
        | ⟨1, _⟩ => (Nat.zero_add _).symm
        | ⟨2, _⟩ => (Nat.zero_add _).symm)
  · -- the entry lies in the constant piece
    rw [dif_neg h]
    have hlt : q.val < d := by omega
    rw [concatenate_pair_apply_left (s₁ := ⟨3, ![A, d, C]⟩) (s₂ := ⟨3, ![A, B₁, C]⟩) (1 : Fin 3) _ _ hc (ix3 p q r) rfl
      (ix3 p ⟨q.val, hlt⟩ r)
      (fun b => match b with | ⟨0, _⟩ => rfl | ⟨1, _⟩ => rfl | ⟨2, _⟩ => rfl)]
    rfl

/-- The block shifted `d` places towards the start along the first axis, the vacated end filled with `v`:
    an entry reads the source `d` places ahead, or `v` when that is past the end. -/
theorem ahead_first {α : Type} {A B C A₁ d : ℕ} (x : (⟨3, ![A, B, C]⟩ : Shape).Idx → α) (v : α)
    (hs : (⟨3, ![A, B, C]⟩ : Shape).Slices ![d, 0, 0] ⟨3, ![A₁, B, C]⟩)
    (hc : Shape.Concatenates [⟨3, ![A₁, B, C]⟩, ⟨3, ![d, B, C]⟩] ⟨3, ![A, B, C]⟩ 0)
    (p : Fin A) (q : Fin B) (r : Fin C) :
    concatenate ⟨3, ![A, B, C]⟩ 0 [⟨⟨3, ![A₁, B, C]⟩, extractStridedSlice ⟨3, ![A₁, B, C]⟩ ![d, 0, 0] x hs⟩, ⟨⟨3, ![d, B, C]⟩, broadcast ⟨3, ![d, B, C]⟩ v⟩] hc (ix3 p q r)
      = if h : p.val + d < A then x (ix3 ⟨p.val + d, h⟩ q r) else v := by
  -- the two pieces' extents along the axis add up to the block's
  have hsum : A₁ + d = A := by
    have e := hc.2.2
    simpa using e
  by_cases h : p.val + d < A
  · -- the entry lies in the slice, which reads the source `d` places further on
    rw [dif_pos h]
    have hlt : p.val < A₁ := by omega
    rw [concatenate_pair_apply_left (s₁ := ⟨3, ![A₁, B, C]⟩) (s₂ := ⟨3, ![d, B, C]⟩) (0 : Fin 3) _ _ hc (ix3 p q r) rfl
      (ix3 ⟨p.val, hlt⟩ q r)
      (fun b => match b with | ⟨0, _⟩ => rfl | ⟨1, _⟩ => rfl | ⟨2, _⟩ => rfl)]
    exact extractStridedSlice_apply _ x hs (ix3 ⟨p.val, hlt⟩ q r) (ix3 ⟨p.val + d, h⟩ q r)
      (fun a => match a with
        | ⟨0, _⟩ => Nat.add_comm _ _
        | ⟨1, _⟩ => (Nat.zero_add _).symm
        | ⟨2, _⟩ => (Nat.zero_add _).symm)
  · -- the entry lies in the constant piece
    rw [dif_neg h]
    have hlt : p.val - A₁ < d := by have := p.isLt; omega
    rw [concatenate_pair_apply_right (s₁ := ⟨3, ![A₁, B, C]⟩) (s₂ := ⟨3, ![d, B, C]⟩) (0 : Fin 3) _ _ hc (ix3 p q r) rfl rfl
      (ix3 ⟨p.val - A₁, hlt⟩ q r)
      (fun b => match b with
        | ⟨0, _⟩ => fun hb => absurd rfl hb
        | ⟨1, _⟩ => fun _ => rfl
        | ⟨2, _⟩ => fun _ => rfl)
      (show p.val - A₁ + A₁ = p.val by omega)]
    rfl

/-- The block shifted `d` places towards the end along the first axis, the vacated start filled with `v`:
    an entry reads the source `d` places behind, or `v` when that is before the start. -/
theorem behind_first {α : Type} {A B C A₁ d : ℕ} (x : (⟨3, ![A, B, C]⟩ : Shape).Idx → α) (v : α)
    (hs : (⟨3, ![A, B, C]⟩ : Shape).Slices ![0, 0, 0] ⟨3, ![A₁, B, C]⟩)
    (hc : Shape.Concatenates [⟨3, ![d, B, C]⟩, ⟨3, ![A₁, B, C]⟩] ⟨3, ![A, B, C]⟩ 0)
    (p : Fin A) (q : Fin B) (r : Fin C) :
    concatenate ⟨3, ![A, B, C]⟩ 0 [⟨⟨3, ![d, B, C]⟩, broadcast ⟨3, ![d, B, C]⟩ v⟩, ⟨⟨3, ![A₁, B, C]⟩, extractStridedSlice ⟨3, ![A₁, B, C]⟩ ![0, 0, 0] x hs⟩] hc (ix3 p q r)
      = if h : d ≤ p.val then x (ix3 ⟨p.val - d, lt_of_le_of_lt (Nat.sub_le _ _) p.isLt⟩ q r) else v := by
  -- the two pieces' extents along the axis add up to the block's
  have hsum : d + A₁ = A := by
    have e := hc.2.2
    simpa using e
  by_cases h : d ≤ p.val
  · -- the entry lies in the slice, `d` places into the block, and the slice starts at the source's start
    rw [dif_pos h]
    have hlt : p.val - d < A₁ := by have := p.isLt; omega
    rw [concatenate_pair_apply_right (s₁ := ⟨3, ![d, B, C]⟩) (s₂ := ⟨3, ![A₁, B, C]⟩) (0 : Fin 3) _ _ hc (ix3 p q r) rfl rfl
      (ix3 ⟨p.val - d, hlt⟩ q r)
      (fun b => match b with
        | ⟨0, _⟩ => fun hb => absurd rfl hb
        | ⟨1, _⟩ => fun _ => rfl
        | ⟨2, _⟩ => fun _ => rfl)
      (show p.val - d + d = p.val by omega)]
    exact extractStridedSlice_apply _ x hs (ix3 ⟨p.val - d, hlt⟩ q r)
      (ix3 ⟨p.val - d, lt_of_le_of_lt (Nat.sub_le _ _) p.isLt⟩ q r)
      (fun a => match a with
        | ⟨0, _⟩ => (Nat.zero_add _).symm
        | ⟨1, _⟩ => (Nat.zero_add _).symm
        | ⟨2, _⟩ => (Nat.zero_add _).symm)
  · -- the entry lies in the constant piece
    rw [dif_neg h]
    have hlt : p.val < d := by omega
    rw [concatenate_pair_apply_left (s₁ := ⟨3, ![d, B, C]⟩) (s₂ := ⟨3, ![A₁, B, C]⟩) (0 : Fin 3) _ _ hc (ix3 p q r) rfl
      (ix3 ⟨p.val, hlt⟩ q r)
      (fun b => match b with | ⟨0, _⟩ => rfl | ⟨1, _⟩ => rfl | ⟨2, _⟩ => rfl)]
    rfl

end Cert.ShiftFill

end
-- ==== Proof.Pass1.lean ====
/-
  The first kernel's body on one block of 8 × 512 × 512 entries, read at an index: the entry is the sliding
  maximum, along the last axis, of the thresholded block's line through that index.
-/
import proofs.«143301_j82523501625529_1_alg».proof.Proof.Gen.KernelIdeal.Skeleton
import proofs.«143301_j82523501625529_1_alg».proof.Proof.SlidingMax
import proofs.«143301_j82523501625529_1_alg».proof.Proof.LibShiftFill
import Idealize.ShloMosaic.Lib.ValueIdx
import Idealize.ShloMosaic.Lib.Pipeline.Value

noncomputable section

namespace Cert.Passes

open Idealize.ShloMosaic Idealize.ShloMosaic.ValueIdx Cert.KernelIdeal Cert.KernelIdeal.Gen Cert.SlidingMax

/-- The value the first kernel stores at `(p, q, r)`: threshold every entry of the line `(p, q, ·)`, then take the
    sliding maximum of radius 4 at `r`. -/
theorem pass1_apply (x : Vec Ideal S8x512x512 .f32) (p : Fin 8) (q r : Fin 512) :
    k0_pay1 (F := Ideal) x (ix3 p q r) = slide (fun r' => keep (x (ix3 p q r'))) r := by
  -- the word 0xFF800000 is the bottom element of the extended reals
  have hbot : (FloatOps.ofBits (F := Ideal) .f32 0xFF800000#32 : EReal) = ⊥ := by
    show Ideal.ofBits .f32 0xFF800000#32 = ⊥
    simp [Ideal.ofBits, Ideal.ieee]
  unfold k0_pay1
  -- the outer operations are entrywise maxima
  simp only [shapeCast_self, maximumf_apply]
  -- each shifted block reads the thresholded block d places ahead or behind, or the fill
  rw [Cert.ShiftFill.ahead_last (d := 1), Cert.ShiftFill.behind_last (d := 1),
    Cert.ShiftFill.ahead_last (d := 2), Cert.ShiftFill.behind_last (d := 2),
    Cert.ShiftFill.ahead_last (d := 3), Cert.ShiftFill.behind_last (d := 3),
    Cert.ShiftFill.ahead_last (d := 4), Cert.ShiftFill.behind_last (d := 4)]
  -- the threshold is entrywise, and the fill is the bottom element
  simp only [select_apply, cmpf_apply, broadcast_apply, hbot]
  unfold slide ahead behind keep
  rfl

end Cert.Passes

end
-- ==== Proof.Region0.lean ====
/-
  What the first pallas_call leaves in its result array, as one function of the array it reads.

  The call tiles the 64 × 512 × 512 volume into 8 blocks of 8 planes; the body works on one block and slides only
  along the last axis, so a block of the result depends on the same block of the operand alone, and the blocks,
  which tile the volume, assemble to the whole-volume function: entry `(P, Q, R)` of the result is the sliding maximum
  at `R` of the thresholded line `(P, Q, ·)` of the operand.
-/
import proofs.«143301_j82523501625529_1_alg».proof.Proof.Gen.KernelIdeal.Frame
import proofs.«143301_j82523501625529_1_alg».proof.Proof.Pass1
import Idealize.ShloMosaic.Lib.Pipeline.Value

set_option maxRecDepth 16384

noncomputable section

namespace Cert.Regions

open Idealize.ShloMosaic Idealize.ShloMosaic.TcCoe Idealize.ShloMosaic.ValueIdx Idealize.SL.Sem
open Cert.KernelIdeal Cert.KernelIdeal.Gen Cert.SlidingMax Cert.Passes
open Idealize.ShloMosaic.Pipeline (Dat)

/-- A 64 × 512 × 512 array read by coordinates. -/
abbrev toVol (A : S64x512x512.Idx → EReal) : Vol 64 512 512 := fun p q r => A (ix3 p q r)
/-- A volume as an array. -/
abbrev ofVol (X : Vol 64 512 512) : S64x512x512.Idx → EReal := fun j => X (j 0) (j 1) (j 2)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps of the first call, decided over its 8 grid points: both windows' block index is the point on
    the first axis and 0 on the others. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point `t` writes back is block `t` of the whole-volume function of the operand array. -/
theorem flushed0_eq (c : Dev nD) (t : Fin cfg0.N) :
    (dat0 V c).flushed 1 t = ((cfg0.win 1).blk t).view.read (Elt Ideal)
      (ofVol (alongLast fun p q r => keep (toVol (V c main_v0) p q r))) := by
  show (cfg0.win 1).cut (grid0.coords t) ((dat0 V c).after 1 t) = _
  rw [after0_1]
  unfold out0_1
  rw [View.canon_unit_zero hz3]
  simp only [View.ld_unit_zero (S := S8x512x512) hz3]
  obtain ⟨e0, e1, e2, e3, e4, e5⟩ := idx_facts0 t
  have ht : t.val < 8 := t.isLt
  funext j
  show k0_pay1 (F := Ideal) (iblk0 V c 0 t) j
    = ofVol (alongLast fun p q r => keep (toVol (V c main_v0) p q r)) (((cfg0.win 1).blk t).view.emb j)
  obtain ⟨p, q, r, rfl⟩ : ∃ (p : Fin 8) (q r : Fin 512), j = ix3 p q r := ⟨j 0, j 1, j 2, eq_ix3 j⟩
  refine (pass1_apply (iblk0 V c 0 t) p q r).trans ?_
  have hout : ((cfg0.win 1).blk t).view.emb (ix3 p q r) = ix3 (⟨t.val * 8 + p.val, by omega⟩ : Fin 64) q r := by
    funext a; apply Fin.ext
    match a with
    | ⟨0, _⟩ => show win0_1.index t (0 : Fin 3) * 8 + 1 * p.val = t.val * 8 + p.val; omega
    | ⟨1, _⟩ => show win0_1.index t (1 : Fin 3) * 512 + 1 * q.val = q.val; omega
    | ⟨2, _⟩ => show win0_1.index t (2 : Fin 3) * 512 + 1 * r.val = r.val; omega
  have hin : ∀ r' : Fin 512, ((cfg0.win 0).blk t).view.emb (ix3 p q r') = ix3 (⟨t.val * 8 + p.val, by omega⟩ : Fin 64) q r' := by
    intro r'
    funext a; apply Fin.ext
    match a with
    | ⟨0, _⟩ => show win0_0.index t (0 : Fin 3) * 8 + 1 * p.val = t.val * 8 + p.val; omega
    | ⟨1, _⟩ => show win0_0.index t (1 : Fin 3) * 512 + 1 * q.val = q.val; omega
    | ⟨2, _⟩ => show win0_0.index t (2 : Fin 3) * 512 + 1 * r'.val = r'.val; omega
  rw [hout]
  show slide (fun r' => keep (V c main_v0 (((cfg0.win 0).blk t).view.emb (ix3 p q r')))) r
    = slide (fun r' => keep (V c main_v0 (ix3 (⟨t.val * 8 + p.val, by omega⟩ : Fin 64) q r'))) r
  simp only [hin]

/-- An index of the array is in point `t`'s block of the result window iff each coordinate is in the block's range. -/
theorem mem_blk0 (t : Fin cfg0.N) (i : S64x512x512.Idx) :
    i ∈ ((cfg0.win 1).blk t).view.set ↔ ∀ a : Fin 3, win0_1.index t a * S8x512x512.size a ≤ (i a).val
      ∧ (i a).val < win0_1.index t a * S8x512x512.size a + S8x512x512.size a := by
  show i ∈ ((View.whole main_v1).slice (win0_1.rect t)).set ↔ _
  rw [View.set_slice_whole, Rect.mem_set_unit]
  exact Iff.rfl

/-- The 8 blocks tile the volume: plane `P` lies in the block of point `P / 8`. -/
theorem cover0 (i : S64x512x512.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 512 := (i 2).isLt
  have hlt : (i 0).val / 8 < cfg0.N := by show (i 0).val / 8 < 8; omega
  refine ⟨⟨(i 0).val / 8, hlt⟩, flush0_1 _, ?_⟩
  rw [mem_blk0]
  obtain ⟨-, -, -, e3, e4, e5⟩ := idx_facts0 ⟨(i 0).val / 8, hlt⟩
  have e3' : win0_1.index ⟨(i 0).val / 8, hlt⟩ (0 : Fin 3) = (i 0).val / 8 := e3
  intro a
  match a with
  | ⟨0, _⟩ =>
    show win0_1.index ⟨(i 0).val / 8, hlt⟩ (0 : Fin 3) * 8 ≤ (i 0).val ∧ (i 0).val < win0_1.index ⟨(i 0).val / 8, hlt⟩ (0 : Fin 3) * 8 + 8
    omega
  | ⟨1, _⟩ =>
    show win0_1.index ⟨(i 0).val / 8, hlt⟩ (1 : Fin 3) * 512 ≤ (i 1).val ∧ (i 1).val < win0_1.index ⟨(i 0).val / 8, hlt⟩ (1 : Fin 3) * 512 + 512
    omega
  | ⟨2, _⟩ =>
    show win0_1.index ⟨(i 0).val / 8, hlt⟩ (2 : Fin 3) * 512 ≤ (i 2).val ∧ (i 2).val < win0_1.index ⟨(i 0).val / 8, hlt⟩ (2 : Fin 3) * 512 + 512
    omega

/-- The result array after the first call: the thresholded operand slid along the last axis. -/
theorem final0 (c : Dev nD) :
    (dat0 V c).arrAt 1 cfg0.N = ofVol (alongLast fun p q r => keep (toVol (V c main_v0) p q r)) :=
  (dat0 V c).arrAt_eq_of_cover 1 _ (fun t _ => flushed0_eq V c t) cover0

end Cert.Regions

end
-- ==== Proof.Pass2.lean ====
/-
  The second kernel's body on one block of 8 × 512 × 512 entries, read at an index: the entry is the sliding
  maximum, along the middle axis, of the block's line through that index.
-/
import proofs.«143301_j82523501625529_1_alg».proof.Proof.Gen.KernelIdeal.Skeleton
import proofs.«143301_j82523501625529_1_alg».proof.Proof.SlidingMax
import proofs.«143301_j82523501625529_1_alg».proof.Proof.LibShiftFill
import Idealize.ShloMosaic.Lib.ValueIdx
import Idealize.ShloMosaic.Lib.Pipeline.Value

noncomputable section

namespace Cert.Passes

open Idealize.ShloMosaic Idealize.ShloMosaic.ValueIdx Cert.KernelIdeal Cert.KernelIdeal.Gen Cert.SlidingMax

/-- The value the second kernel stores at `(p, q, r)`: the sliding maximum of radius 4 at `q` of the line
    `(p, ·, r)`. -/
theorem pass2_apply (x : Vec Ideal S8x512x512 .f32) (p : Fin 8) (q r : Fin 512) :
    k1_pay1 (F := Ideal) x (ix3 p q r) = slide (fun q' => x (ix3 p q' r)) q := by
  -- the word 0xFF800000 is the bottom element of the extended reals
  have hbot : (FloatOps.ofBits (F := Ideal) .f32 0xFF800000#32 : EReal) = ⊥ := by
    show Ideal.ofBits .f32 0xFF800000#32 = ⊥
    simp [Ideal.ofBits, Ideal.ieee]
  unfold k1_pay1
  -- the outer operations are entrywise maxima
  simp only [shapeCast_self, maximumf_apply]
  -- each shifted block reads the block d places ahead or behind along the middle axis, or the fill
  rw [Cert.ShiftFill.ahead_mid (d := 1), Cert.ShiftFill.behind_mid (d := 1),
    Cert.ShiftFill.ahead_mid (d := 2), Cert.ShiftFill.behind_mid (d := 2),
    Cert.ShiftFill.ahead_mid (d := 3), Cert.ShiftFill.behind_mid (d := 3),
    Cert.ShiftFill.ahead_mid (d := 4), Cert.ShiftFill.behind_mid (d := 4)]
  -- the fill is the bottom element
  simp only [hbot]
  unfold slide ahead behind
  rfl

end Cert.Passes

end
-- ==== Proof.Region1.lean ====
/-
  What the second pallas_call leaves in its result array, as one function of the array it reads.

  The call tiles the 64 × 512 × 512 volume into 8 blocks of 8 planes, as the first does; the body slides only along
  the middle axis, which a block holds whole, so a block of the result depends on the same block of the operand alone
  and the blocks assemble to the whole-volume function: entry `(P, Q, R)` of the result is the sliding maximum at `Q`
  of the line `(P, ·, R)` of the operand.
-/
import proofs.«143301_j82523501625529_1_alg».proof.Proof.Gen.KernelIdeal.Frame
import proofs.«143301_j82523501625529_1_alg».proof.Proof.Pass2
import proofs.«143301_j82523501625529_1_alg».proof.Proof.Region0
import Idealize.ShloMosaic.Lib.Pipeline.Value

set_option maxRecDepth 16384

noncomputable section

namespace Cert.Regions

open Idealize.ShloMosaic Idealize.ShloMosaic.TcCoe Idealize.ShloMosaic.ValueIdx Idealize.SL.Sem
open Cert.KernelIdeal Cert.KernelIdeal.Gen Cert.SlidingMax Cert.Passes
open Idealize.ShloMosaic.Pipeline (Dat)

variable (V : (c : Dev nD) → (b : Ref sig .tc) → Buf (Elt Ideal) ((c : Thread nD τ).loc b))

/-- The printed index maps of the second call, decided over its 8 grid points: both windows' block index is the point
    on the first axis and 0 on the others. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- What point `t` writes back is block `t` of the whole-volume function of the operand array. -/
theorem flushed1_eq (c : Dev nD) (t : Fin cfg1.N) :
    (dat1 V c).flushed 1 t = ((cfg1.win 1).blk t).view.read (Elt Ideal)
      (ofVol (alongMid (toVol (V c main_v1)))) := by
  show (cfg1.win 1).cut (grid1.coords t) ((dat1 V c).after 1 t) = _
  rw [after1_1]
  unfold out1_1
  rw [View.canon_unit_zero hz3]
  simp only [View.ld_unit_zero (S := S8x512x512) hz3]
  obtain ⟨e0, e1, e2, e3, e4, e5⟩ := idx_facts1 t
  have ht : t.val < 8 := t.isLt
  funext j
  show k1_pay1 (F := Ideal) (iblk1 V c 0 t) j
    = ofVol (alongMid (toVol (V c main_v1))) (((cfg1.win 1).blk t).view.emb j)
  obtain ⟨p, q, r, rfl⟩ : ∃ (p : Fin 8) (q r : Fin 512), j = ix3 p q r := ⟨j 0, j 1, j 2, eq_ix3 j⟩
  refine (pass2_apply (iblk1 V c 0 t) p q r).trans ?_
  have hout : ((cfg1.win 1).blk t).view.emb (ix3 p q r) = ix3 (⟨t.val * 8 + p.val, by omega⟩ : Fin 64) q r := by
    funext a; apply Fin.ext
    match a with
    | ⟨0, _⟩ => show win1_1.index t (0 : Fin 3) * 8 + 1 * p.val = t.val * 8 + p.val; omega
    | ⟨1, _⟩ => show win1_1.index t (1 : Fin 3) * 512 + 1 * q.val = q.val; omega
    | ⟨2, _⟩ => show win1_1.index t (2 : Fin 3) * 512 + 1 * r.val = r.val; omega
  have hin : ∀ q' : Fin 512, ((cfg1.win 0).blk t).view.emb (ix3 p q' r) = ix3 (⟨t.val * 8 + p.val, by omega⟩ : Fin 64) q' r := by
    intro q'
    funext a; apply Fin.ext
    match a with
    | ⟨0, _⟩ => show win1_0.index t (0 : Fin 3) * 8 + 1 * p.val = t.val * 8 + p.val; omega
    | ⟨1, _⟩ => show win1_0.index t (1 : Fin 3) * 512 + 1 * q'.val = q'.val; omega
    | ⟨2, _⟩ => show win1_0.index t (2 : Fin 3) * 512 + 1 * r.val = r.val; omega
  rw [hout]
  show slide (fun q' => V c main_v1 (((cfg1.win 0).blk t).view.emb (ix3 p q' r))) q
    = slide (fun q' => V c main_v1 (ix3 (⟨t.val * 8 + p.val, by omega⟩ : Fin 64) q' r)) q
  simp only [hin]

/-- An index of the array is in point `t`'s block of the result window iff each coordinate is in the block's range. -/
theorem mem_blk1 (t : Fin cfg1.N) (i : S64x512x512.Idx) :
    i ∈ ((cfg1.win 1).blk t).view.set ↔ ∀ a : Fin 3, win1_1.index t a * S8x512x512.size a ≤ (i a).val
      ∧ (i a).val < win1_1.index t a * S8x512x512.size a + S8x512x512.size a := by
  show i ∈ ((View.whole main_v2).slice (win1_1.rect t)).set ↔ _
  rw [View.set_slice_whole, Rect.mem_set_unit]
  exact Iff.rfl

/-- The 8 blocks tile the volume: plane `P` lies in the block of point `P / 8`. -/
theorem cover1 (i : S64x512x512.Idx) :
    ∃ t : Fin cfg1.N, (cfg1.win 1).flush t = true ∧ i ∈ ((cfg1.win 1).blk t).view.set := by
  have hi0 : (i 0).val < 64 := (i 0).isLt
  have hi1 : (i 1).val < 512 := (i 1).isLt
  have hi2 : (i 2).val < 512 := (i 2).isLt
  have hlt : (i 0).val / 8 < cfg1.N := by show (i 0).val / 8 < 8; omega
  refine ⟨⟨(i 0).val / 8, hlt⟩, flush1_1 _, ?_⟩
  rw [mem_blk1]
  obtain ⟨-, -, -, e3, e4, e5⟩ := idx_facts1 ⟨(i 0).val / 8, hlt⟩
  have e3' : win1_1.index ⟨(i 0).val / 8, hlt⟩ (0 : Fin 3) = (i 0).val / 8 := e3
  intro a
  match a with
  | ⟨0, _⟩ =>
    show win1_1.index ⟨(i 0).val / 8, hlt⟩ (0 : Fin 3) * 8 ≤ (i 0).val ∧ (i 0).val < win1_1.index ⟨(i 0).val / 8, hlt⟩ (0 : Fin 3) * 8 + 8
    omega
  | ⟨1, _⟩ =>
    show win1_1.index ⟨(i 0).val / 8, hlt⟩ (1 : Fin 3) * 512 ≤ (i 1).val ∧ (i 1).val < win1_1.index ⟨(i 0).val / 8, hlt⟩ (1 : Fin 3) * 512 + 512
    omega
  | ⟨2, _⟩ =>
    show win1_1.index ⟨(i 0).val / 8, hlt⟩ (2 : Fin 3) * 512 ≤ (i 2).val ∧ (i 2).val < win1_1.index ⟨(i 0).val / 8, hlt⟩ (2 : Fin 3) * 512 + 512
    omega

/-- The result array after the second call: the operand slid along the middle axis. -/
theorem final1 (c : Dev nD) :
    (dat1 V c).arrAt 1 cfg1.N = ofVol (alongMid (toVol (V c main_v1))) :=
  (dat1 V c).arrAt_eq_of_cover 1 _ (fun t _ => flushed1_eq V c t) cover1

end Cert.Regions

end
-- ==== Proof.Pass3.lean ====
/-
  The third kernel's body on one block of 64 × 32 × 512 entries of the twice-slid volume `x` and the same block of
  the input volume `y`, read at an index: the sliding maximum of `x` along the first axis, kept where it is
  positive and equals the thresholded entry of `y`.
-/
import proofs.«143301_j82523501625529_1_alg».proof.Proof.Gen.KernelIdeal.Skeleton
import proofs.«143301_j82523501625529_1_alg».proof.Proof.SlidingMax
import proofs.«143301_j82523501625529_1_alg».proof.Proof.LibShiftFill
import Idealize.ShloMosaic.Lib.ValueIdx
import Idealize.ShloMosaic.Lib.Pipeline.Value

noncomputable section

namespace Cert.Passes

open Idealize.ShloMosaic Idealize.ShloMosaic.ValueIdx Cert.KernelIdeal Cert.KernelIdeal.Gen Cert.SlidingMax

/-- The value the third kernel stores at `(p, q, r)`: the sliding maximum of radius 4 at `p` of the line
    `(·, q, r)` of `x`, tested against the thresholded entry of `y`. -/
theorem pass3_apply (x y : Vec Ideal S64x32x512 .f32) (p : Fin 64) (q : Fin 32) (r : Fin 512) :
    k2_pay1 (F := Ideal) x y (ix3 p q r) = pick (slide (fun p' => x (ix3 p' q r)) p) (keep (y (ix3 p q r))) := by
  -- the word 0xFF800000 is the bottom element of the extended reals
  have hbot : (FloatOps.ofBits (F := Ideal) .f32 0xFF800000#32 : EReal) = ⊥ := by
    show Ideal.ofBits .f32 0xFF800000#32 = ⊥
    simp [Ideal.ofBits, Ideal.ieee]
  -- the conjunction of two entrywise tests is entrywise
  have handi : ∀ (a b : IVec S64x32x512 1) (i : S64x32x512.Idx), andi a b i = IntOp.andi (a i) (b i) :=
    fun _ _ _ => rfl
  unfold k2_pay1
  -- the final test and the threshold are entrywise, and so are the maxima
  simp only [shapeCast_self, select_apply, handi, cmpf_apply, broadcast_apply, maximumf_apply]
  -- each shifted block reads the block d places ahead or behind along the first axis, or the fill
  rw [Cert.ShiftFill.ahead_first (d := 1), Cert.ShiftFill.behind_first (d := 1),
    Cert.ShiftFill.ahead_first (d := 2), Cert.ShiftFill.behind_first (d := 2),
    Cert.ShiftFill.ahead_first (d := 3), Cert.ShiftFill.behind_first (d := 3),
    Cert.ShiftFill.ahead_first (d := 4), Cert.ShiftFill.behind_first (d := 4)]
  -- the fill is the bottom element
  simp only [hbot]
  unfold pick keep slide ahead behind
  rfl

end Cert.Passes

end
-- ==== Proof.Region2.lean ====
/-
  What the third pallas_call leaves in its result array, as one function of the two arrays it reads.

  The call tiles the 64 × 512 × 512 volume into 16 blocks of 32 rows of the middle axis, each holding the first axis
  whole; the body slides the first operand along the first axis and tests the result against the thresholded second
  operand at the same position, so a block of the result depends on the same block of each operand alone and the
  blocks assemble to the whole-volume function: entry `(P, Q, R)` of the result is the sliding maximum at `P` of the
  line `(·, Q, R)` of the first operand, kept where it is positive and equals the thresholded entry `(P, Q, R)` of the
  second.
-/
import proofs.«143301_j82523501625529_1_alg».proof.Proof.Gen.KernelIdeal.Frame
import proofs.«143301_j82523501625529_1_alg».proof.Proof.Pass3
import proofs.«143301_j82523501625529_1_alg».proof.Proof.Region0
import Idealize.ShloMosaic.Lib.Pipeline.Value

set_option maxRecDepth 16384

noncomputable section

namespace Cert.Regions

open Idealize.ShloMosaic Idealize.ShloMosaic.TcCoe Idealize.ShloMosaic.ValueIdx Idealize.SL.Sem
open Cert.KernelIdeal Cert.KernelIdeal.Gen Cert.SlidingMax Cert.Passes
open Idealize.ShloMosaic.Pipeline (Dat)

variable (V : (c : Dev nD) → (b : Ref sig .tc) → Buf (Elt Ideal) ((c : Thread nD τ).loc b))

/-- The printed index maps of the third call, decided over its 16 grid points: every window's block index is the
    point on the middle axis and 0 on the others. -/
theorem idx_facts2 : ∀ t : Fin cfg2.N, win2_0.index t (0 : Fin 3) = 0 ∧ win2_0.index t (1 : Fin 3) = t.val ∧ win2_0.index t (2 : Fin 3) = 0
    ∧ win2_1.index t (0 : Fin 3) = 0 ∧ win2_1.index t (1 : Fin 3) = t.val ∧ win2_1.index t (2 : Fin 3) = 0
    ∧ win2_2.index t (0 : Fin 3) = 0 ∧ win2_2.index t (1 : Fin 3) = t.val ∧ win2_2.index t (2 : Fin 3) = 0 :=
  (by decide +kernel : ∀ t : Fin grid2.N, _)

/-- The third call's whole-volume function: `C` the twice-slid volume, `A` the input volume. -/
abbrev third (C A : S64x512x512.Idx → EReal) : S64x512x512.Idx → EReal :=
  ofVol fun p q r => pick (alongFirst (toVol C) p q r) (keep (toVol A p q r))

/-- What point `t` writes back is block `t` of the whole-volume function of the operand arrays. -/
theorem flushed2_eq (c : Dev nD) (t : Fin cfg2.N) :
    (dat2 V c).flushed 2 t = ((cfg2.win 2).blk t).view.read (Elt Ideal) (third (V c main_v2) (V c main_v0)) := by
  show (cfg2.win 2).cut (grid2.coords t) ((dat2 V c).after 2 t) = _
  rw [after2_2]
  unfold out2_2
  rw [View.canon_unit_zero hz3]
  simp only [View.ld_unit_zero (S := S64x32x512) hz3]
  obtain ⟨e0, e1, e2, e3, e4, e5, e6, e7, e8⟩ := idx_facts2 t
  have ht : t.val < 16 := t.isLt
  funext j
  show k2_pay1 (F := Ideal) (iblk2 V c 0 t) (iblk2 V c 1 t) j
    = third (V c main_v2) (V c main_v0) (((cfg2.win 2).blk t).view.emb j)
  obtain ⟨p, q, r, rfl⟩ : ∃ (p : Fin 64) (q : Fin 32) (r : Fin 512), j = ix3 p q r := ⟨j 0, j 1, j 2, eq_ix3 j⟩
  refine (pass3_apply (iblk2 V c 0 t) (iblk2 V c 1 t) p q r).trans ?_
  have hout : ((cfg2.win 2).blk t).view.emb (ix3 p q r) = ix3 p (⟨t.val * 32 + q.val, by omega⟩ : Fin 512) r := by
    funext a; apply Fin.ext
    match a with
    | ⟨0, _⟩ => show win2_2.index t (0 : Fin 3) * 64 + 1 * p.val = p.val; omega
    | ⟨1, _⟩ => show win2_2.index t (1 : Fin 3) * 32 + 1 * q.val = t.val * 32 + q.val; omega
    | ⟨2, _⟩ => show win2_2.index t (2 : Fin 3) * 512 + 1 * r.val = r.val; omega
  have hin0 : ∀ p' : Fin 64, ((cfg2.win 0).blk t).view.emb (ix3 p' q r) = ix3 p' (⟨t.val * 32 + q.val, by omega⟩ : Fin 512) r := by
    intro p'
    funext a; apply Fin.ext
    match a with
    | ⟨0, _⟩ => show win2_0.index t (0 : Fin 3) * 64 + 1 * p'.val = p'.val; omega
    | ⟨1, _⟩ => show win2_0.index t (1 : Fin 3) * 32 + 1 * q.val = t.val * 32 + q.val; omega
    | ⟨2, _⟩ => show win2_0.index t (2 : Fin 3) * 512 + 1 * r.val = r.val; omega
  have hin1 : ((cfg2.win 1).blk t).view.emb (ix3 p q r) = ix3 p (⟨t.val * 32 + q.val, by omega⟩ : Fin 512) r := by
    funext a; apply Fin.ext
    match a with
    | ⟨0, _⟩ => show win2_1.index t (0 : Fin 3) * 64 + 1 * p.val = p.val; omega
    | ⟨1, _⟩ => show win2_1.index t (1 : Fin 3) * 32 + 1 * q.val = t.val * 32 + q.val; omega
    | ⟨2, _⟩ => show win2_1.index t (2 : Fin 3) * 512 + 1 * r.val = r.val; omega
  rw [hout]
  show pick (slide (fun p' => V c main_v2 (((cfg2.win 0).blk t).view.emb (ix3 p' q r))) p)
      (keep (V c main_v0 (((cfg2.win 1).blk t).view.emb (ix3 p q r))))
    = pick (slide (fun p' => V c main_v2 (ix3 p' (⟨t.val * 32 + q.val, by omega⟩ : Fin 512) r)) p)
      (keep (V c main_v0 (ix3 p (⟨t.val * 32 + q.val, by omega⟩ : Fin 512) r)))
  simp only [hin0, hin1]

/-- An index of the array is in point `t`'s block of the result window iff each coordinate is in the block's range. -/
theorem mem_blk2 (t : Fin cfg2.N) (i : S64x512x512.Idx) :
    i ∈ ((cfg2.win 2).blk t).view.set ↔ ∀ a : Fin 3, win2_2.index t a * S64x32x512.size a ≤ (i a).val
      ∧ (i a).val < win2_2.index t a * S64x32x512.size a + S64x32x512.size a := by
  show i ∈ ((View.whole main_v3).slice (win2_2.rect t)).set ↔ _
  rw [View.set_slice_whole, Rect.mem_set_unit]
  exact Iff.rfl

/-- The 16 blocks tile the volume: row `Q` of the middle axis lies in the block of point `Q / 32`. -/
theorem cover2 (i : S64x512x512.Idx) :
    ∃ t : Fin cfg2.N, (cfg2.win 2).flush t = true ∧ i ∈ ((cfg2.win 2).blk t).view.set := by
  have hi0 : (i 0).val < 64 := (i 0).isLt
  have hi1 : (i 1).val < 512 := (i 1).isLt
  have hi2 : (i 2).val < 512 := (i 2).isLt
  have hlt : (i 1).val / 32 < cfg2.N := by show (i 1).val / 32 < 16; omega
  refine ⟨⟨(i 1).val / 32, hlt⟩, flush2_2 _, ?_⟩
  rw [mem_blk2]
  obtain ⟨-, -, -, -, -, -, e6, e7, e8⟩ := idx_facts2 ⟨(i 1).val / 32, hlt⟩
  have e7' : win2_2.index ⟨(i 1).val / 32, hlt⟩ (1 : Fin 3) = (i 1).val / 32 := e7
  intro a
  match a with
  | ⟨0, _⟩ =>
    show win2_2.index ⟨(i 1).val / 32, hlt⟩ (0 : Fin 3) * 64 ≤ (i 0).val ∧ (i 0).val < win2_2.index ⟨(i 1).val / 32, hlt⟩ (0 : Fin 3) * 64 + 64
    omega
  | ⟨1, _⟩ =>
    show win2_2.index ⟨(i 1).val / 32, hlt⟩ (1 : Fin 3) * 32 ≤ (i 1).val ∧ (i 1).val < win2_2.index ⟨(i 1).val / 32, hlt⟩ (1 : Fin 3) * 32 + 32
    omega
  | ⟨2, _⟩ =>
    show win2_2.index ⟨(i 1).val / 32, hlt⟩ (2 : Fin 3) * 512 ≤ (i 2).val ∧ (i 2).val < win2_2.index ⟨(i 1).val / 32, hlt⟩ (2 : Fin 3) * 512 + 512
    omega

/-- The result array after the third call. -/
theorem final2 (c : Dev nD) :
    (dat2 V c).arrAt 2 cfg2.N = third (V c main_v2) (V c main_v0) :=
  (dat2 V c).arrAt_eq_of_cover 2 _ (fun t _ => flushed2_eq V c t) cover2

end Cert.Regions

end
-- ==== Proof.KernelValue.lean ====
/-
  The idealized kernel's result array as one function of its argument.

  The run leaves the result buffer at the contents of the last segment boundary. Reading that boundary back through
  the three calls — the third call's array from its two operands, the second call's from the first's, the first
  call's from the reshaped argument, the reshaped argument kept in place by the calls that only read it — gives the
  whole computation on the argument volume: threshold, slide along the last, middle and first axis, then the
  local-maximum test against the thresholded argument (`peaks`).
-/
import proofs.«143301_j82523501625529_1_alg».proof.Proof.KernelRun
import proofs.«143301_j82523501625529_1_alg».proof.Proof.Region0
import proofs.«143301_j82523501625529_1_alg».proof.Proof.Region1
import proofs.«143301_j82523501625529_1_alg».proof.Proof.Region2
import Idealize.ShloMosaic.Lib.StableHlo.Run
import Idealize.ShloMosaic.Lib.Pipeline.Value

set_option maxRecDepth 16384

noncomputable section

namespace Cert.KernelIdeal.Named

open Idealize.ShloMosaic Idealize.ShloMosaic.TcCoe Idealize.ShloMosaic.ValueIdx Idealize.SL.Sem Idealize.ShloMosaic.StableHlo
open Cert.KernelIdeal Cert.KernelIdeal.Gen Cert.SlidingMax Cert.Regions

variable (m : (ℓ : Loc nD τ sig) → Buf (Elt Ideal) ℓ) (ρ : Dev nD → PrngReg)

/-- The argument as a volume: entry `(p, q, r)` of the `1 × 1 × 64 × 512 × 512` array. -/
def argVol (c : Dev nD) : Vol 64 512 512 := fun p q r =>
  (m ((c.tc : Thread nD τ).loc main_arg0) : S1x1x64x512x512.Idx → EReal) (ix5 (0 : Fin 1) (0 : Fin 1) p q r)

/-- The reshaped argument, as the first call finds it, read by coordinates: the reshape drops the two unit axes. -/
theorem entry_v0 (c : Dev nD) (p : Fin 64) (q r : Fin 512) :
    (V1 m ρ c main_v0 : S64x512x512.Idx → EReal) (ix3 p q r) = argVol m c p q r := by
  have e : (V1 m ρ c main_v0 : S64x512x512.Idx → EReal)
      = shapeCast S64x512x512 (m ((c.tc : Thread nD τ).loc main_arg0) : S1x1x64x512x512.Idx → EReal) shapeCasts_S1x1x64x512x512_S64x512x512 := by
    show StableHlo.after hostOps0 (W0 m ρ c) (Proc.devRef .tc main_v0) = _
    after_results
    rfl
  rw [e]
  unfold argVol
  refine shapeCast_apply _ shapeCasts_S1x1x64x512x512_S64x512x512 (ix3 p q r) (ix5 (0 : Fin 1) (0 : Fin 1) p q r) ?_
  rewrite [Shape.rowMajor_val_five, Shape.rowMajor_val_three]
  show (((0 * 1 + 0) * 64 + p.val) * 512 + q.val) * 512 + r.val = (p.val * 512 + q.val) * 512 + r.val
  omega

/-- The reshaped argument is still in place when the third call reads it: the first call only reads it and the
    second does not touch it. -/
theorem v0_at_third (c : Dev nD) : V3 m ρ c main_v0 = V1 m ρ c main_v0 :=
  calc V3 m ρ c main_v0
    _ = W2 m ρ c (Proc.devRef .tc main_v0) := W3_of_ne m ρ c main_v0 (by decide)
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0

/-- What the second call reads: the thresholded argument slid along the last axis. -/
theorem v1_at_second (c : Dev nD) :
    V2 m ρ c main_v1 = ofVol (alongLast fun p q r => keep (argVol m c p q r)) := by
  have h : V2 m ρ c main_v1 = (dat0 (V1 m ρ) c).arrAt 1 cfg0.N := W2_arr m ρ c 1
  rw [h, final0]
  have e : (fun p q r => keep (toVol (V1 m ρ c main_v0) p q r)) = fun p q r => keep (argVol m c p q r) := by
    funext p q r
    rw [show toVol (V1 m ρ c main_v0) p q r = argVol m c p q r from entry_v0 m ρ c p q r]
  rw [e]

/-- What the third call reads as its first operand: that, slid along the middle axis. -/
theorem v2_at_third (c : Dev nD) :
    V3 m ρ c main_v2 = ofVol (alongMid (alongLast fun p q r => keep (argVol m c p q r))) := by
  have h : V3 m ρ c main_v2 = (dat1 (V2 m ρ) c).arrAt 1 cfg1.N := W3_arr m ρ c 1
  rw [h, final1, v1_at_second]

/-- The result buffer at the last boundary is the whole computation on the argument volume. -/
theorem result_eq (c : Dev nD) :
    (W4 m ρ c (Proc.devRef .tc main_v3) : S64x512x512.Idx → EReal) = ofVol (peaks (argVol m c)) := by
  have h : W4 m ρ c (Proc.devRef .tc main_v3) = (dat2 (V3 m ρ) c).arrAt 2 cfg2.N := W4_arr m ρ c 2
  rw [h, final2, v2_at_third, v0_at_third]
  funext j
  obtain ⟨p, q, r, rfl⟩ : ∃ (p : Fin 64) (q r : Fin 512), j = ix3 p q r := ⟨j 0, j 1, j 2, eq_ix3 j⟩
  show pick (alongFirst (alongMid (alongLast fun p q r => keep (argVol m c p q r))) p q r)
      (keep ((V1 m ρ c main_v0 : S64x512x512.Idx → EReal) (ix3 p q r)))
    = pick (alongFirst (alongMid (alongLast fun p q r => keep (argVol m c p q r))) p q r)
      (keep (argVol m c p q r))
  rw [entry_v0]

/-- The idealized kernel's run with its result named: the result array ends at `peaks` of the argument volume, the
    argument as launched. -/
theorem run : θ_run defs (onTc (τ := τ) (main (F := Ideal))) ⟨m, fun _ => 0, ρ⟩ (fun r => ∀ c : Dev nD,
      r.2.mem ((c.tc : Thread nD τ).loc main_v3) = ofVol (peaks (argVol m c))
      ∧ r.2.mem ((c.tc : Thread nD τ).loc main_arg0) = m ((c.tc : Thread nD τ).loc main_arg0)) :=
  (θ_run defs _ _).mono (fun r h c => ⟨(h c).1.trans (result_eq m ρ c), (h c).2⟩) (run_named m ρ)

end Cert.KernelIdeal.Named

end
-- ==== Proof.LibWindowMax.lean ====
/-
  A host window reduction by `max` from `⊥`, read through its order: the maximum over a padded window is below
  `z` exactly when every entry of the operand that the window covers is.

  The host reduces each window by a left fold of the body over the window's positions in row-major order, a
  position in the padding contributing the initial value. With the body `max` and the initial value `⊥` the fold's
  order is immaterial and padding contributes nothing, so the result at an index is characterised by the entries
  the window covers. Stated for a rank-5 operand with unit windows on the two leading axes and windows of 9 padded
  by 4 on both sides on the three trailing ones — a 9 × 9 × 9 box around each position, clipped to the operand.
-/
import Idealize.ShloMosaic.PureOps.Ideal
import Idealize.ShloMosaic.Lib.ValueIdx

noncomputable section

namespace Cert.WindowMax

open Idealize.ShloMosaic Idealize.ShloMosaic.ValueIdx

/-- A left fold of `max` over a list is below `z` exactly when its start and every term are. -/
theorem foldl_max_le_iff {ι : Type} (g : ι → EReal) (l : List ι) (v z : EReal) :
    l.foldl (fun r n => max r (g n)) v ≤ z ↔ v ≤ z ∧ ∀ n ∈ l, g n ≤ z := by
  induction l generalizing v with
  | nil => simp
  | cons m l ih =>
    rw [List.foldl_cons, ih, max_le_iff]
    constructor
    · rintro ⟨⟨hv, hm⟩, hl⟩
      refine ⟨hv, fun n hn => ?_⟩
      rcases List.mem_cons.mp hn with rfl | hn
      · exact hm
      · exact hl n hn
    · rintro ⟨hv, hl⟩
      exact ⟨⟨hv, hl m (List.mem_cons_self ..)⟩, fun n hn => hl n (List.mem_cons_of_mem _ hn)⟩

/-- Positions `i` and `j` are within distance 4 of each other. -/
def Near (i j : ℕ) : Prop := j ≤ i + 4 ∧ i ≤ j + 4

/-- A term that is `⊥` unless a condition holds is below `z` exactly when it is wherever the condition holds. -/
theorem dite_bot_le_iff {C : Prop} [Decidable C] (t : C → EReal) (z : EReal) :
    (if hC : C then t hC else ⊥) ≤ z ↔ ∀ hC : C, t hC ≤ z := by
  by_cases hC : C
  · rw [dif_pos hC]; exact ⟨fun H _ => H, fun H => H hC⟩
  · rw [dif_neg hC]; exact ⟨fun _ hC' => absurd hC' hC, fun _ => bot_le⟩

/-- The 9 × 9 × 9 window maximum with padding 4 of a `1 × 1 × a × b × c` operand, from `⊥`, at `(0, 0, p, q, r)`, is below
    `z` exactly when every entry whose three trailing coordinates are within distance 4 of `(p, q, r)` is. -/
theorem reduceWindow_max_le_iff {a b c : ℕ} (x : (⟨5, ![1, 1, a, b, c]⟩ : Shape).Idx → EReal)
    (init : (⟨0, ![]⟩ : Shape).Idx → EReal) (hinit : init ix0 = ⊥)
    (h : (⟨5, ![1, 1, a, b, c]⟩ : Shape).ReduceWindows (![1, 1, 9, 9, 9] : Fin 5 → Nat) ![1, 1, 1, 1, 1] ![0, 0, 4, 4, 4] ![0, 0, 4, 4, 4] ⟨5, ![1, 1, a, b, c]⟩)
    (hu : 0 < (⟨0, ![]⟩ : Shape).numel) (p : Fin a) (q : Fin b) (r : Fin c) (z : EReal) :
    Host.reduceWindow (α := EReal) (s := ⟨5, ![1, 1, a, b, c]⟩) (t := ⟨5, ![1, 1, a, b, c]⟩) (u := ⟨0, ![]⟩)
        (FloatOps.maximumf (F := Ideal) (φ := .f32)) ![1, 1, 9, 9, 9] ![1, 1, 1, 1, 1] ![0, 0, 4, 4, 4] ![0, 0, 4, 4, 4] x init h hu
        (ix5 (0 : Fin 1) (0 : Fin 1) p q r) ≤ z
      ↔ ∀ (p' : Fin a) (q' : Fin b) (r' : Fin c), Near p.val p'.val → Near q.val q'.val → Near r.val r'.val →
          x (ix5 (0 : Fin 1) (0 : Fin 1) p' q' r') ≤ z := by
  have hfirst : init (Shape.Idx.first hu) = ⊥ := by
    rw [show Shape.Idx.first hu = ix0 from funext fun a => a.elim0]; exact hinit
  -- the result is a fold of `max` from `⊥` over the window's positions, a position in the padding contributing `⊥`:
  -- it is below `z` exactly when every position that lands inside the operand reads an entry below `z`
  unfold Host.reduceWindow
  refine (foldl_max_le_iff _ _ _ _).trans ?_
  rw [hfirst]
  simp only [bot_le, true_and, List.mem_finRange, forall_true_left, dite_bot_le_iff]
  constructor
  · -- the entry at `(p', q', r')` is the one read at the window position `(p' + 4 - p, q' + 4 - q, r' + 4 - r)`
    intro H p' q' r' hp hq hr
    obtain ⟨hp1, hp2⟩ := hp
    obtain ⟨hq1, hq2⟩ := hq
    obtain ⟨hr1, hr2⟩ := hr
    have Hw := H ((⟨5, ![1, 1, 9, 9, 9]⟩ : Shape).rowMajor
      (ix5 (0 : Fin 1) (0 : Fin 1) (⟨p'.val + 4 - p.val, by omega⟩ : Fin 9) (⟨q'.val + 4 - q.val, by omega⟩ : Fin 9)
        (⟨r'.val + 4 - r.val, by omega⟩ : Fin 9)))
    simp only [Equiv.symm_apply_apply] at Hw
    have key := Hw (by
      intro d
      match d with
      | ⟨0, _⟩ => show 0 ≤ 0 * 1 + 0 ∧ 0 * 1 + 0 - 0 < 1; omega
      | ⟨1, _⟩ => show 0 ≤ 0 * 1 + 0 ∧ 0 * 1 + 0 - 0 < 1; omega
      | ⟨2, _⟩ => show 4 ≤ p.val * 1 + (p'.val + 4 - p.val) ∧ p.val * 1 + (p'.val + 4 - p.val) - 4 < a; omega
      | ⟨3, _⟩ => show 4 ≤ q.val * 1 + (q'.val + 4 - q.val) ∧ q.val * 1 + (q'.val + 4 - q.val) - 4 < b; omega
      | ⟨4, _⟩ => show 4 ≤ r.val * 1 + (r'.val + 4 - r.val) ∧ r.val * 1 + (r'.val + 4 - r.val) - 4 < c; omega)
    refine le_of_eq_of_le (congrArg x ?_) key
    funext d
    match d with
    | ⟨0, _⟩ => exact Fin.ext (show 0 = 0 * 1 + 0 - 0 by omega)
    | ⟨1, _⟩ => exact Fin.ext (show 0 = 0 * 1 + 0 - 0 by omega)
    | ⟨2, _⟩ => exact Fin.ext (show p'.val = p.val * 1 + (p'.val + 4 - p.val) - 4 by omega)
    | ⟨3, _⟩ => exact Fin.ext (show q'.val = q.val * 1 + (q'.val + 4 - q.val) - 4 by omega)
    | ⟨4, _⟩ => exact Fin.ext (show r'.val = r.val * 1 + (r'.val + 4 - r.val) - 4 by omega)
  · -- a window position `w` that lands inside the operand reads the entry at `(p + w₂ - 4, q + w₃ - 4, r + w₄ - 4)`,
    -- whose coordinates are within distance 4 of `(p, q, r)` because each `wᵢ` is below 9
    intro H n
    obtain ⟨w, rfl⟩ : ∃ w, (⟨5, ![1, 1, 9, 9, 9]⟩ : Shape).rowMajor w = n := ⟨_, Equiv.apply_symm_apply _ n⟩
    simp only [Equiv.symm_apply_apply]
    intro hin
    have e0 : 0 < 5 := by decide
    have e1 : 1 < 5 := by decide
    have e2 : 2 < 5 := by decide
    have e3 : 3 < 5 := by decide
    have e4 : 4 < 5 := by decide
    have w0 : (w ⟨0, e0⟩).val < 1 := (w ⟨0, e0⟩).isLt
    have w1 : (w ⟨1, e1⟩).val < 1 := (w ⟨1, e1⟩).isLt
    have w2 : (w ⟨2, e2⟩).val < 9 := (w ⟨2, e2⟩).isLt
    have w3 : (w ⟨3, e3⟩).val < 9 := (w ⟨3, e3⟩).isLt
    have w4 : (w ⟨4, e4⟩).val < 9 := (w ⟨4, e4⟩).isLt
    have h2 : 4 ≤ p.val * 1 + (w ⟨2, e2⟩).val ∧ p.val * 1 + (w ⟨2, e2⟩).val - 4 < a := hin ⟨2, e2⟩
    have h3 : 4 ≤ q.val * 1 + (w ⟨3, e3⟩).val ∧ q.val * 1 + (w ⟨3, e3⟩).val - 4 < b := hin ⟨3, e3⟩
    have h4 : 4 ≤ r.val * 1 + (w ⟨4, e4⟩).val ∧ r.val * 1 + (w ⟨4, e4⟩).val - 4 < c := hin ⟨4, e4⟩
    have key := H ⟨p.val + (w ⟨2, e2⟩).val - 4, by omega⟩ ⟨q.val + (w ⟨3, e3⟩).val - 4, by omega⟩
      ⟨r.val + (w ⟨4, e4⟩).val - 4, by omega⟩
      ⟨by show p.val + (w ⟨2, e2⟩).val - 4 ≤ p.val + 4; omega, by show p.val ≤ p.val + (w ⟨2, e2⟩).val - 4 + 4; omega⟩
      ⟨by show q.val + (w ⟨3, e3⟩).val - 4 ≤ q.val + 4; omega, by show q.val ≤ q.val + (w ⟨3, e3⟩).val - 4 + 4; omega⟩
      ⟨by show r.val + (w ⟨4, e4⟩).val - 4 ≤ r.val + 4; omega, by show r.val ≤ r.val + (w ⟨4, e4⟩).val - 4 + 4; omega⟩
    refine le_of_eq_of_le (congrArg x ?_) key
    funext d
    match d with
    | ⟨0, _⟩ => exact Fin.ext (show 0 * 1 + (w ⟨0, e0⟩).val - 0 = 0 by omega)
    | ⟨1, _⟩ => exact Fin.ext (show 0 * 1 + (w ⟨1, e1⟩).val - 0 = 0 by omega)
    | ⟨2, _⟩ => exact Fin.ext (show p.val * 1 + (w ⟨2, e2⟩).val - 4 = p.val + (w ⟨2, e2⟩).val - 4 by omega)
    | ⟨3, _⟩ => exact Fin.ext (show q.val * 1 + (w ⟨3, e3⟩).val - 4 = q.val + (w ⟨3, e3⟩).val - 4 by omega)
    | ⟨4, _⟩ => exact Fin.ext (show r.val * 1 + (w ⟨4, e4⟩).val - 4 = r.val + (w ⟨4, e4⟩).val - 4 by omega)

end Cert.WindowMax

end
-- ==== Proof.RefBox.lean ====
/-
  The reference program's result, read at an index: it is the volume computation `peaks` of the argument —
  threshold, the maximum over the clipped 9 × 9 × 9 box, and the local-maximum test.

  The reference takes the box maximum in one host window reduction. Its order characterisation
  (the window maximum is below `z` iff every covered entry is) is the same as that of the three nested sliding
  maxima, so the two are equal; the threshold before it and the test after it are spelt alike on both sides.
-/
import proofs.«143301_j82523501625529_1_alg».proof.Proof.RefRead
import proofs.«143301_j82523501625529_1_alg».proof.Proof.SlidingMax
import proofs.«143301_j82523501625529_1_alg».proof.Proof.LibWindowMax
import Idealize.ShloMosaic.Lib.ValueIdx
import Idealize.ShloMosaic.Lib.Pipeline.Value

noncomputable section

namespace Cert.RefBox

open Idealize.ShloMosaic Idealize.ShloMosaic.ValueIdx Cert.ReferenceIdeal Cert.ReferenceIdeal.ReadP Cert.SlidingMax

/-- The argument as a volume: entry `(p, q, r)` of the `1 × 1 × 64 × 512 × 512` array. -/
def vol (x0 : S1x1x64x512x512.Idx → EReal) : Vol 64 512 512 := fun p q r => x0 (ix5 (0 : Fin 1) (0 : Fin 1) p q r)

/-- The thresholded argument, entry by entry: the stage before the window reduction keeps an entry above one half and
    replaces any other by zero. -/
theorem kept_apply (x0 : (⟨S1x1x64x512x512, .f32⟩ : BufTy).Contents (Elt Ideal)) (p : Fin 64) (q r : Fin 512) :
    val_main_v2 (F := Ideal) x0 (ix5 (0 : Fin 1) (0 : Fin 1) p q r) = keep (vol x0 p q r) := by
  rw [val_main_v2_apply, val_main_v1_apply, val_main_v0_apply, val_main_cst_apply, val_main_call0_v0_apply,
    val_main_cst_0_apply]
  rfl

/-- The host's window maximum of the thresholded argument is the three nested sliding maxima. -/
theorem window_eq (x0 : (⟨S1x1x64x512x512, .f32⟩ : BufTy).Contents (Elt Ideal)) (p : Fin 64) (q r : Fin 512) :
    val_main_v4 (F := Ideal) x0 (ix5 (0 : Fin 1) (0 : Fin 1) p q r)
      = alongFirst (alongMid (alongLast fun p' q' r' => keep (vol x0 p' q' r'))) p q r := by
  -- the reduction starts from the least element
  have hinit : val_main_v3 (F := Ideal) ix0 = ⊥ := by
    rw [val_main_v3_apply, val_main_cst_1_apply]
    show Ideal.ofBits .f32 0xFF800000#32 = ⊥
    simp [Ideal.ofBits, Ideal.ieee]
  -- two extended reals with the same upper bounds are equal
  refine eq_of_forall_ge_iff fun z => ?_
  unfold val_main_v4
  -- the window maximum is below `z` iff every covered entry of the thresholded argument is
  refine (Cert.WindowMax.reduceWindow_max_le_iff (a := 64) (b := 512) (c := 512) (val_main_v2 (F := Ideal) x0)
    (val_main_v3 (F := Ideal)) hinit _ _ p q r z).trans ?_
  -- and so are the nested sliding maxima, over the same box of the same entries
  refine Iff.trans ?_ (box_le_iff _ p q r z).symm
  constructor
  · intro H p' q' r' hp hq hr
    rw [← kept_apply]
    exact H p' q' r' hp hq hr
  · intro H p' q' r' hp hq hr
    rw [kept_apply]
    exact H p' q' r' hp hq hr

/-- The reference's result at `(p, q, r)`. -/
theorem ref_apply (x0 : (⟨S1x1x64x512x512, .f32⟩ : BufTy).Contents (Elt Ideal)) (p : Fin 64) (q r : Fin 512) :
    val_main_v10 (F := Ideal) x0 (ix3 p q r) = peaks (vol x0) p q r := by
  -- the reshape reads the rank-5 array at the index with the same row-major position: `(0, 0, p, q, r)`
  have hidx : idx_main_v10 (ix3 p q r) = ix5 (0 : Fin 1) (0 : Fin 1) p q r := by
    have hp := p.isLt
    have hq := q.isLt
    have hr := r.isLt
    funext a
    match a with
    | ⟨0, _⟩ => rfl
    | ⟨1, _⟩ => rfl
    | ⟨2, _⟩ => exact Fin.ext (by show ((p.val * 512 + q.val) * 512 + r.val) / 262144 % 64 = p.val; omega)
    | ⟨3, _⟩ => exact Fin.ext (by show ((p.val * 512 + q.val) * 512 + r.val) / 512 % 512 = q.val; omega)
    | ⟨4, _⟩ => exact Fin.ext (by show ((p.val * 512 + q.val) * 512 + r.val) % 512 = r.val; omega)
  -- the stages after the window reduction, entry by entry, over the box maximum and the thresholded entry
  rw [val_main_v10_apply, hidx, val_main_v9_apply, val_main_v8_apply, val_main_v6_apply, val_main_v7_apply,
    val_main_v5_apply, val_main_cst_2_apply, val_main_call1_v0_apply, val_main_cst_3_apply, window_eq, kept_apply]
  unfold peaks pick
  rfl

end Cert.RefBox

end
-- ==== Proof.lean ====
/-
  The certificate's claim: the three programs run and leave their argument in place, the idealized kernel is the
  kernel's own text read over the extended reals, and the idealized kernel and the idealized reference end with equal
  results.

  Both programs threshold the input volume (entries above one half are kept, the others become zero), take at every
  position the maximum over the surrounding 9 × 9 × 9 box clipped to the volume, and keep that maximum where it is
  positive and equals the thresholded entry at the position (a local maximum), zero elsewhere. The reference takes the
  box maximum in one window reduction padded with -∞; the kernel in three calls, sliding a radius-4 maximum along the
  last, the middle and the first axis in turn, each shift filled with -∞. On the extended reals `max` is associative,
  commutative and idempotent with `⊥` neutral, so either is below a bound exactly when every entry of the clipped box
  is: the two box maxima are equal, and the threshold and the test are spelt alike. No finiteness of the input is used.

  The kernel's result array is read off its run call by call (each call's blocks tile the volume and a block of the
  result depends on the same block of the operands alone); the reference's off its run one operation at a time.
-/
import proofs.«143301_j82523501625529_1_alg».proof.Defs
import proofs.«143301_j82523501625529_1_alg».proof.Proof.Gen.Kernel
import proofs.«143301_j82523501625529_1_alg».proof.Proof.Gen.Kernel.Skeleton
import proofs.«143301_j82523501625529_1_alg».proof.Proof.Gen.Kernel.Launch
import proofs.«143301_j82523501625529_1_alg».proof.Proof.Gen.Kernel.Points
import proofs.«143301_j82523501625529_1_alg».proof.Proof.Gen.Kernel.Frame
import proofs.«143301_j82523501625529_1_alg».proof.Proof.Gen.KernelIdeal
import proofs.«143301_j82523501625529_1_alg».proof.Proof.Gen.KernelIdeal.Skeleton
import proofs.«143301_j82523501625529_1_alg».proof.Proof.Gen.KernelIdeal.Launch
import proofs.«143301_j82523501625529_1_alg».proof.Proof.Gen.KernelIdeal.Points
import proofs.«143301_j82523501625529_1_alg».proof.Proof.Gen.KernelIdeal.Frame
import proofs.«143301_j82523501625529_1_alg».proof.Proof.Gen.ReferenceIdeal
import proofs.«143301_j82523501625529_1_alg».proof.Proof.Gen.Pre_finite_inputs
import proofs.«143301_j82523501625529_1_alg».proof.Proof.KernelValue
import proofs.«143301_j82523501625529_1_alg».proof.Proof.RefBox
import Idealize.ShloMosaic.Adequacy
import Idealize.ShloMosaic.Init

noncomputable section

namespace Cert.Proof

open Idealize.ShloMosaic Idealize.ShloMosaic.TcCoe Idealize.ShloMosaic.ValueIdx Idealize.SL.Sem
open Cert.SlidingMax Cert.Regions

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end at `peaks` of the argument volume: the kernel's by its three calls read back, the reference's by its
    operations read at an index; the argument volumes agree by hypothesis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => ofVol (peaks (Cert.KernelIdeal.Named.argVol m c)), Cert.KernelIdeal.Named.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v10_eq]
  funext j
  obtain ⟨p, q, r, rfl⟩ : ∃ (p : Fin 64) (q r : Fin 512), j = ix3 p q r := ⟨j 0, j 1, j 2, eq_ix3 j⟩
  rw [Cert.RefBox.ref_apply]
  show peaks (Cert.RefBox.vol _) p q r = peaks (Cert.KernelIdeal.Named.argVol m c) p q r
  have e : Cert.RefBox.vol (m' ((c.tc : Thread Cert.ReferenceIdeal.nD Cert.ReferenceIdeal.τ).loc Cert.ReferenceIdeal.main_arg0))
      = Cert.KernelIdeal.Named.argVol m c := by
    unfold Cert.RefBox.vol Cert.KernelIdeal.Named.argVol
    rw [hagree c]
  rw [e]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
